-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S_ : Shape := ⟨0, ![]⟩

class Facts : Prop where
  bcast_S_S32x64x96x96 : S_.BroadcastsInDim S32x64x96x96 (![] : Fin 0 → Fin S32x64x96x96.rank)
  reducesTo_S32x64x96x96_S_d0_1_2_3 : S32x64x96x96.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x64x96x96 .f32) (main_arg1 : FVec F S8x64 .f32) (main_arg2 : FVec F S8 .f32) (main_arg3 : FVec F S64x8 .f32) (main_arg4 : FVec F S64 .f32) : IVec S_ 1 :=
  let main_v0 : FVec F S32x64x96x96 .f32 := Host.absf main_arg0
  let main_cst : FVec F S_ .f32 := constant S_ .f32 0x7F800000#32
  let main_v1 : FVec F S32x64x96x96 .f32 := broadcastInDim S32x64x96x96 ![] bcast_S_S32x64x96x96 main_cst
  let main_v2 : IVec S32x64x96x96 1 := cmpf .olt main_v0 main_v1
  let main_c : IVec S_ 1 := constantI S_ 1 1#1
  let main_v3 : IVec S_ 1 := (fun x v => Host.reduce IntOp.andi x v reducesTo_S32x64x96x96_S_d0_1_2_3 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S32x64x9216 : Shape := ⟨3, ![32, 64, 9216]⟩
abbrev S32x64x64 : Shape := ⟨3, ![32, 64, 64]⟩
abbrev S4x64x9216 : Shape := ⟨3, ![4, 64, 9216]⟩
abbrev S4x64x64 : Shape := ⟨3, ![4, 64, 64]⟩
abbrev S4x64 : Shape := ⟨2, ![4, 64]⟩
abbrev S4x64x1 : Shape := ⟨3, ![4, 64, 1]⟩
abbrev S64x64 : Shape := ⟨2, ![64, 64]⟩
abbrev S_ : Shape := ⟨0, ![]⟩
abbrev S32 : Shape := ⟨1, ![32]⟩
abbrev S32x1x1 : Shape := ⟨3, ![32, 1, 1]⟩
abbrev S1x64x64 : Shape := ⟨3, ![1, 64, 64]⟩
abbrev S32x64 : Shape := ⟨2, ![32, 64]⟩
abbrev S32x8 : Shape := ⟨2, ![32, 8]⟩
abbrev S1x8 : Shape := ⟨2, ![1, 8]⟩
abbrev S1x64 : Shape := ⟨2, ![1, 64]⟩
abbrev S32x64x1x1 : Shape := ⟨4, ![32, 64, 1, 1]⟩
abbrev S4x64x96x96 : Shape := ⟨4, ![4, 64, 96, 96]⟩
abbrev S4x64x1x1 : Shape := ⟨4, ![4, 64, 1, 1]⟩

abbrev nBuf : Space → Nat
  | .hbm => 106
  | .vmem => 10
  | .smem => 0
  | _ => 0

abbrev bufTy : (tb : Table) → Fin (tcTables nBuf tb) → BufTy
  | .hbm, ⟨0, _⟩ => ⟨S32x64x96x96, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S32x64x9216, .f32⟩
  | .hbm, ⟨6, _⟩ => ⟨S32x64x64, .f32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x64, .f32⟩
  | .hbm, ⟨17, _⟩ => ⟨S64x64, .i32⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S_, .f32⟩
  | .hbm, ⟨24, _⟩ => ⟨S32x64x64, .f32⟩
  | .hbm, ⟨25, _⟩ => ⟨S32x64x64, .i1⟩
  | .hbm, ⟨26, _⟩ => ⟨S32x64x64, .f32⟩
  | .hbm, ⟨27, _⟩ => ⟨S_, .f32⟩
  | .hbm, ⟨28, _⟩ => ⟨S32, .f32⟩
  | .hbm, ⟨29, _⟩ => ⟨S32x1x1, .f32⟩
  | .hbm, ⟨30, _⟩ => ⟨S32x64x64, .f32⟩
  | .hbm, ⟨31, _⟩ => ⟨S32x64x64, .f32⟩
  | .hbm, ⟨32, _⟩ => ⟨S1x64x64, .f32⟩
  | .hbm, ⟨33, _⟩ => ⟨S32x64x64, .f32⟩
  | .hbm, ⟨34, _⟩ => ⟨S32x64x64, .f32⟩
  | .hbm, ⟨35, _⟩ => ⟨S_, .f32⟩
  | .hbm, ⟨36, _⟩ => ⟨S32x64x64, .f32⟩
  | .hbm, ⟨37, _⟩ => ⟨S32x64x64, .f32⟩
  | .hbm, ⟨38, _⟩ => ⟨S32x64x64, .f32⟩
  | .hbm, ⟨39, _⟩ => ⟨S1x64x64, .f32⟩
  | .hbm, ⟨40, _⟩ => ⟨S32x64x64, .f32⟩
  | .hbm, ⟨41, _⟩ => ⟨S32x64x64, .f32⟩
  | .hbm, ⟨42, _⟩ => ⟨S_, .f32⟩
  | .hbm, ⟨43, _⟩ => ⟨S32x64x64, .f32⟩
  | .hbm, ⟨44, _⟩ => ⟨S32x64x64, .f32⟩
  | .hbm, ⟨45, _⟩ => ⟨S32x64x64, .f32⟩
  | .hbm, ⟨46, _⟩ => ⟨S32x64x64, .f32⟩
  | .hbm, ⟨47, _⟩ => ⟨S32x64x64, .f32⟩
  | .hbm, ⟨48, _⟩ => ⟨S1x64x64, .f32⟩
  | .hbm, ⟨49, _⟩ => ⟨S32x64x64, .f32⟩
  | .hbm, ⟨50, _⟩ => ⟨S32x64x64, .f32⟩
  | .hbm, ⟨51, _⟩ => ⟨S_, .f32⟩
  | .hbm, ⟨52, _⟩ => ⟨S32x64x64, .f32⟩
  | .hbm, ⟨53, _⟩ => ⟨S32x64x64, .f32⟩
  | .hbm, ⟨54, _⟩ => ⟨S32x64x64, .f32⟩
  | .hbm, ⟨55, _⟩ => ⟨S32x64x64, .f32⟩
  | .hbm, ⟨56, _⟩ => ⟨S32x64x64, .f32⟩
  | .hbm, ⟨57, _⟩ => ⟨S1x64x64, .f32⟩
  | .hbm, ⟨58, _⟩ => ⟨S32x64x64, .f32⟩
  | .hbm, ⟨59, _⟩ => ⟨S32x64x64, .f32⟩
  | .hbm, ⟨60, _⟩ => ⟨S_, .f32⟩
  | .hbm, ⟨61, _⟩ => ⟨S32x64x64, .f32⟩
  | .hbm, ⟨62, _⟩ => ⟨S32x64x64, .f32⟩
  | .hbm, ⟨63, _⟩ => ⟨S32x64x64, .f32⟩
  | .hbm, ⟨64, _⟩ => ⟨S32x64x64, .f32⟩
  | .hbm, ⟨65, _⟩ => ⟨S32x64x64, .f32⟩
  | .hbm, ⟨66, _⟩ => ⟨S32x64x64, .f32⟩
  | .hbm, ⟨67, _⟩ => ⟨S1x64x64, .f32⟩
  | .hbm, ⟨68, _⟩ => ⟨S32x64x64, .f32⟩
  | .hbm, ⟨69, _⟩ => ⟨S32x64x64, .f32⟩
  | .hbm, ⟨70, _⟩ => ⟨S32x64x64, .f32⟩
  | .hbm, ⟨71, _⟩ => ⟨S_, .f32⟩
  | .hbm, ⟨72, _⟩ => ⟨S32x64x64, .f32⟩
  | .hbm, ⟨73, _⟩ => ⟨S32x64x64, .f32⟩
  | .hbm, ⟨74, _⟩ => ⟨S32, .f32⟩
  | .hbm, ⟨75, _⟩ => ⟨S32x1x1, .f32⟩
  | .hbm, ⟨76, _⟩ => ⟨S32x64x64, .f32⟩
  | .hbm, ⟨77, _⟩ => ⟨S32x64x64, .f32⟩
  | .hbm, ⟨78, _⟩ => ⟨S_, .f32⟩
  | .hbm, ⟨79, _⟩ => ⟨S32x64, .f32⟩
  | .hbm, ⟨80, _⟩ => ⟨S_, .f32⟩
  | .hbm, ⟨81, _⟩ => ⟨S32x64, .f32⟩
  | .hbm, ⟨82, _⟩ => ⟨S32x64, .f32⟩
  | .hbm, ⟨83, _⟩ => ⟨S64x8, .f32⟩
  | .hbm, ⟨84, _⟩ => ⟨S32x8, .f32⟩
  | .hbm, ⟨85, _⟩ => ⟨S1x8, .f32⟩
  | .hbm, ⟨86, _⟩ => ⟨S32x8, .f32⟩
  | .hbm, ⟨87, _⟩ => ⟨S32x8, .f32⟩
  | .hbm, ⟨88, _⟩ => ⟨S_, .f32⟩
  | .hbm, ⟨89, _⟩ => ⟨S32x8, .f32⟩
  | .hbm, ⟨90, _⟩ => ⟨S32x8, .f32⟩
  | .hbm, ⟨91, _⟩ => ⟨S8x64, .f32⟩
  | .hbm, ⟨92, _⟩ => ⟨S32x64, .f32⟩
  | .hbm, ⟨93, _⟩ => ⟨S1x64, .f32⟩
  | .hbm, ⟨94, _⟩ => ⟨S32x64, .f32⟩
  | .hbm, ⟨95, _⟩ => ⟨S32x64, .f32⟩
  | .hbm, ⟨96, _⟩ => ⟨S32x64, .f32⟩
  | .hbm, ⟨97, _⟩ => ⟨S32x64, .f32⟩
  | .hbm, ⟨98, _⟩ => ⟨S_, .f32⟩
  | .hbm, ⟨99, _⟩ => ⟨S32x64, .f32⟩
  | .hbm, ⟨100, _⟩ => ⟨S32x64, .f32⟩
  | .hbm, ⟨101, _⟩ => ⟨S_, .f32⟩
  | .hbm, ⟨102, _⟩ => ⟨S32x64, .f32⟩
  | .hbm, ⟨103, _⟩ => ⟨S32x64, .f32⟩
  | .hbm, ⟨104, _⟩ => ⟨S32x64x1x1, .f32⟩
  | .hbm, ⟨105, _⟩ => ⟨S32x64x96x96, .f32⟩
  | .local _ .vmem, ⟨0, _⟩ => ⟨S4x64x9216, .f32⟩
  | .local _ .vmem, ⟨1, _⟩ => ⟨S4x64x9216, .f32⟩
  | .local _ .vmem, ⟨2, _⟩ => ⟨S4x64x64, .f32⟩
  | .local _ .vmem, ⟨3, _⟩ => ⟨S4x64x64, .f32⟩
  | .local _ .vmem, ⟨4, _⟩ => ⟨S4x64x96x96, .f32⟩
  | .local _ .vmem, ⟨5, _⟩ => ⟨S4x64x96x96, .f32⟩
  | .local _ .vmem, ⟨6, _⟩ => ⟨S4x64x1x1, .f32⟩
  | .local _ .vmem, ⟨7, _⟩ => ⟨S4x64x1x1, .f32⟩
  | .local _ .vmem, ⟨8, _⟩ => ⟨S4x64x96x96, .f32⟩
  | .local _ .vmem, ⟨9, _⟩ => ⟨S4x64x96x96, .f32⟩
  | _, _ => ⟨S32x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_c : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_call0_call0_v0 : Ref sig .tc := ⟨.hbm, 25, rfl⟩
abbrev main_call0_v6 : Ref sig .tc := ⟨.hbm, 26, rfl⟩
abbrev main_call0_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_cst_8 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x64x96x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x64x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x64x96x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x64x96x96_S32x64x9216 : S32x64x96x96.ShapeCasts S32x64x9216
  inb_S4x64x9216_S4x64x9216_0_0_0 : ∀ a, (![0, 0, 0] : Fin 3 → Nat) a + S4x64x9216.size a ≤ S4x64x9216.size a
  h_S4x64x9216 : 0 < S4x64x9216.numel
  shapeCasts_S4x64x9216_S4x64x9216 : S4x64x9216.ShapeCasts S4x64x9216
  reduces_S4x64x9216_S4x64 : S4x64x9216.Reduces [2] S4x64
  shapeCasts_S4x64_S4x64x1 : S4x64.ShapeCasts S4x64x1
  broadcasts_S4x64x1_S4x64x9216 : S4x64x1.Broadcasts S4x64x9216
  inb_S4x64x64_S4x64x64_0_0_0 : ∀ a, (![0, 0, 0] : Fin 3 → Nat) a + S4x64x64.size a ≤ S4x64x64.size a
  h_S4x64x64 : 0 < S4x64x64.numel
  bcast_S_S64x64 : S_.BroadcastsInDim S64x64 (![] : Fin 0 → Fin S64x64.rank)
  bcast_S_S32x64x64 : S_.BroadcastsInDim S32x64x64 (![] : Fin 0 → Fin S32x64x64.rank)
  bcast_S64x64_S32x64x64_1_2 : S64x64.BroadcastsInDim S32x64x64 (![1, 2] : Fin 2 → Fin S32x64x64.rank)
  reducesTo_S32x64x64_S32_d1_2 : S32x64x64.ReducesTo [1, 2] S32
  h_S_ : 0 < S_.numel
  bcast_S32_S32x1x1_0 : S32.BroadcastsInDim S32x1x1 (![0] : Fin 1 → Fin S32x1x1.rank)
  bcast_S32x1x1_S32x64x64_0_1_2 : S32x1x1.BroadcastsInDim S32x64x64 (![0, 1, 2] : Fin 3 → Fin S32x64x64.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  reducesTo_S32x64x64_S32x64_d1 : S32x64x64.ReducesTo [1] S32x64
  bcast_S_S32x64 : S_.BroadcastsInDim S32x64 (![] : Fin 0 → Fin S32x64.rank)
  transposes_S8x64_S64x8_1_0 : S8x64.Transposes [1, 0] S64x8
  bcast_S8_S1x8_1 : S8.BroadcastsInDim S1x8 (![1] : Fin 1 → Fin S1x8.rank)
  bcast_S1x8_S32x8_0_1 : S1x8.BroadcastsInDim S32x8 (![0, 1] : Fin 2 → Fin S32x8.rank)
  bcast_S_S32x8 : S_.BroadcastsInDim S32x8 (![] : Fin 0 → Fin S32x8.rank)
  transposes_S64x8_S8x64_1_0 : S64x8.Transposes [1, 0] S8x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  shapeCasts_S32x64_S32x64x1x1 : S32x64.ShapeCasts S32x64x1x1
  inb_S4x64x96x96_S4x64x96x96_0_0_0_0 : ∀ a, (![0, 0, 0, 0] : Fin 4 → Nat) a + S4x64x96x96.size a ≤ S4x64x96x96.size a
  h_S4x64x96x96 : 0 < S4x64x96x96.numel
  inb_S4x64x1x1_S4x64x1x1_0_0_0_0 : ∀ a, (![0, 0, 0, 0] : Fin 4 → Nat) a + S4x64x1x1.size a ≤ S4x64x1x1.size a
  h_S4x64x1x1 : 0 < S4x64x1x1.numel
  shapeCasts_S4x64x1x1_S4x64x1x1 : S4x64x1x1.ShapeCasts S4x64x1x1
  broadcasts_S4x64x1x1_S4x64x96x96 : S4x64x1x1.Broadcasts S4x64x96x96
  dot_S4x64x9216_S4x64x9216_S4x64x64_2_2_1_1_0_0_wf : DotDims.WF S4x64x9216 S4x64x9216 S4x64x64 [2] [2] [1] [1] [0] [0]
  dot_S32x64x64_S32x64x64_S32x64x64_2_1_1_2_0_0_wf : DotDims.WF S32x64x64 S32x64x64 S32x64x64 [2] [1] [1] [2] [0] [0]
  dot_S32x64_S64x8_S32x8_1_0_0_1_n_n_wf : DotDims.WF S32x64 S64x8 S32x8 [1] [0] [0] [1] [] []
  dot_S32x8_S8x64_S32x64_1_0_0_1_n_n_wf : DotDims.WF S32x8 S8x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x9216.size a ≤ S32x64x9216.size a
  hwx0_0 : ∀ i : grid0.Coords, EltTy.bits .f32 = 32 ∨ (Rect.block (s := S32x64x9216) S4x64x9216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S32x64x64.size a
  hwx0_1 : ∀ i : grid0.Coords, EltTy.bits .f32 = 32 ∨ (Rect.block (s := S32x64x64) S4x64x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x64x96x96.size a ≤ S32x64x96x96.size a
  hwx1_0 : ∀ i : grid1.Coords, EltTy.bits .f32 = 32 ∨ (Rect.block (s := S32x64x96x96) S4x64x96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x64x1x1.size a ≤ S32x64x1x1.size a
  hwx1_1 : ∀ i : grid1.Coords, EltTy.bits .f32 = 32 ∨ (Rect.block (s := S32x64x1x1) S4x64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x64x96x96.size a ≤ S32x64x96x96.size a
  hwx1_2 : ∀ i : grid1.Coords, EltTy.bits .f32 = 32 ∨ (Rect.block (s := S32x64x96x96) S4x64x96x96.size (cc1_transform_2 i) (hinb1_2 i)).WholeWords (EltTy.packing .f32)

variable [Facts₀]

def dot_S4x64x9216_S4x64x9216_S4x64x64_2_2_1_1_0_0 : DotDims S4x64x9216 S4x64x9216 S4x64x64 where
  lhsContracting := [2]
  rhsContracting := [2]
  lhsNonContracting := [1]
  rhsNonContracting := [1]
  lhsBatch := [0]
  rhsBatch := [0]
  wf := dot_S4x64x9216_S4x64x9216_S4x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S32x64_S64x8_S32x8_1_0_0_1_n_n : DotDims S32x64 S64x8 S32x8 where
  lhsContracting := [1]
  rhsContracting := [0]
  lhsNonContracting := [0]
  rhsNonContracting := [1]
  lhsBatch := []
  rhsBatch := []
  wf := dot_S32x64_S64x8_S32x8_1_0_0_1_n_n_wf
def dot_S32x8_S8x64_S32x64_1_0_0_1_n_n : DotDims S32x8 S8x64 S32x64 where
  lhsContracting := [1]
  rhsContracting := [0]
  lhsNonContracting := [0]
  rhsNonContracting := [1]
  lhsBatch := []
  rhsBatch := []
  wf := dot_S32x8_S8x64_S32x64_1_0_0_1_n_n_wf

abbrev win0_0 : Pipeline.Window sig grid0 :=
  Pipeline.Window.ofSpec (Memref.whole main_v0) S4x64x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4x64x96x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S4x64x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v76) S4x64x96x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x64x96x96 : Shape := ⟨4, ![32, 64, 96, 96]⟩
abbrev S8x64 : Shape := ⟨2, ![8, 64]⟩
abbrev S8 : Shape := ⟨1, ![8]⟩
abbrev S64x8 : Shape := ⟨2, ![64, 8]⟩
abbrev S64 : Shape := ⟨1, ![64]⟩
abbrev S32x64x9216 : Shape := ⟨3, ![32, 64, 9216]⟩
abbrev S_ : Shape := ⟨0, ![]⟩
abbrev S32x64 : Shape := ⟨2, ![32, 64]⟩
abbrev S32x64x1 : Shape := ⟨3, ![32, 64, 1]⟩
abbrev S32x64x64 : Shape := ⟨3, ![32, 64, 64]⟩
abbrev S64x64 : Shape := ⟨2, ![64, 64]⟩
abbrev S32 : Shape := ⟨1, ![32]⟩
abbrev S32x1x1 : Shape := ⟨3, ![32, 1, 1]⟩
abbrev S1x64x64 : Shape := ⟨3, ![1, 64, 64]⟩
abbrev S32x8 : Shape := ⟨2, ![32, 8]⟩
abbrev S1x8 : Shape := ⟨2, ![1, 8]⟩
abbrev S1x64 : Shape := ⟨2, ![1, 64]⟩
abbrev S32x64x1x1 : Shape := ⟨4, ![32, 64, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S32x64x96x96, .f32⟩
  | .hbm, ⟨1, _⟩ => ⟨S8x64, .f32⟩
  | .hbm, ⟨2, _⟩ => ⟨S8, .f32⟩
  | .hbm, ⟨3, _⟩ => ⟨S64x8, .f32⟩
  | .hbm, ⟨4, _⟩ => ⟨S64, .f32⟩
  | .hbm, ⟨5, _⟩ => ⟨S32x64x9216, .f32⟩
  | .hbm, ⟨6, _⟩ => ⟨S_, .f32⟩
  | .hbm, ⟨7, _⟩ => ⟨S32x64, .f32⟩
  | .hbm, ⟨8, _⟩ => ⟨S32x64x1, .f32⟩
  | .hbm, ⟨9, _⟩ => ⟨S_, .f32⟩
  | .hbm, ⟨10, _⟩ => ⟨S32x64x1, .f32⟩
  | .hbm, ⟨11, _⟩ => ⟨S32x64x1, .f32⟩
  | .hbm, ⟨12, _⟩ => ⟨S32x64x9216, .f32⟩
  | .hbm, ⟨13, _⟩ => ⟨S32x64x9216, .f32⟩
  | .hbm, ⟨14, _⟩ => ⟨S32x64x64, .f32⟩
  | .hbm, ⟨15, _⟩ => ⟨S_, .f32⟩
  | .hbm, ⟨16, _⟩ => ⟨S32x64x64, .f32⟩
  | .hbm, ⟨17, _⟩ => ⟨S32x64x64, .f32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S32x64x64, .f32⟩
  | .hbm, ⟨36, _⟩ => ⟨S32x64x64, .i1⟩
  | .hbm, ⟨37, _⟩ => ⟨S32x64x64, .f32⟩
  | .hbm, ⟨38, _⟩ => ⟨S_, .f32⟩
  | .hbm, ⟨39, _⟩ => ⟨S32, .f32⟩
  | .hbm, ⟨40, _⟩ => ⟨S32x1x1, .f32⟩
  | .hbm, ⟨41, _⟩ => ⟨S32x64x64, .f32⟩
  | .hbm, ⟨42, _⟩ => ⟨S32x64x64, .f32⟩
  | .hbm, ⟨43, _⟩ => ⟨S1x64x64, .f32⟩
  | .hbm, ⟨44, _⟩ => ⟨S32x64x64, .f32⟩
  | .hbm, ⟨45, _⟩ => ⟨S32x64x64, .f32⟩
  | .hbm, ⟨46, _⟩ => ⟨S_, .f32⟩
  | .hbm, ⟨47, _⟩ => ⟨S32x64x64, .f32⟩
  | .hbm, ⟨48, _⟩ => ⟨S32x64x64, .f32⟩
  | .hbm, ⟨49, _⟩ => ⟨S32x64x64, .f32⟩
  | .hbm, ⟨50, _⟩ => ⟨S1x64x64, .f32⟩
  | .hbm, ⟨51, _⟩ => ⟨S32x64x64, .f32⟩
  | .hbm, ⟨52, _⟩ => ⟨S32x64x64, .f32⟩
  | .hbm, ⟨53, _⟩ => ⟨S_, .f32⟩
  | .hbm, ⟨54, _⟩ => ⟨S32x64x64, .f32⟩
  | .hbm, ⟨55, _⟩ => ⟨S32x64x64, .f32⟩
  | .hbm, ⟨56, _⟩ => ⟨S32x64x64, .f32⟩
  | .hbm, ⟨57, _⟩ => ⟨S32x64x64, .f32⟩
  | .hbm, ⟨58, _⟩ => ⟨S32x64x64, .f32⟩
  | .hbm, ⟨59, _⟩ => ⟨S1x64x64, .f32⟩
  | .hbm, ⟨60, _⟩ => ⟨S32x64x64, .f32⟩
  | .hbm, ⟨61, _⟩ => ⟨S32x64x64, .f32⟩
  | .hbm, ⟨62, _⟩ => ⟨S_, .f32⟩
  | .hbm, ⟨63, _⟩ => ⟨S32x64x64, .f32⟩
  | .hbm, ⟨64, _⟩ => ⟨S32x64x64, .f32⟩
  | .hbm, ⟨65, _⟩ => ⟨S32x64x64, .f32⟩
  | .hbm, ⟨66, _⟩ => ⟨S32x64x64, .f32⟩
  | .hbm, ⟨67, _⟩ => ⟨S32x64x64, .f32⟩
  | .hbm, ⟨68, _⟩ => ⟨S1x64x64, .f32⟩
  | .hbm, ⟨69, _⟩ => ⟨S32x64x64, .f32⟩
  | .hbm, ⟨70, _⟩ => ⟨S32x64x64, .f32⟩
  | .hbm, ⟨71, _⟩ => ⟨S_, .f32⟩
  | .hbm, ⟨72, _⟩ => ⟨S32x64x64, .f32⟩
  | .hbm, ⟨73, _⟩ => ⟨S32x64x64, .f32⟩
  | .hbm, ⟨74, _⟩ => ⟨S32x64x64, .f32⟩
  | .hbm, ⟨75, _⟩ => ⟨S32x64x64, .f32⟩
  | .hbm, ⟨76, _⟩ => ⟨S32x64x64, .f32⟩
  | .hbm, ⟨77, _⟩ => ⟨S32x64x64, .f32⟩
  | .hbm, ⟨78, _⟩ => ⟨S1x64x64, .f32⟩
  | .hbm, ⟨79, _⟩ => ⟨S32x64x64, .f32⟩
  | .hbm, ⟨80, _⟩ => ⟨S32x64x64, .f32⟩
  | .hbm, ⟨81, _⟩ => ⟨S32x64x64, .f32⟩
  | .hbm, ⟨82, _⟩ => ⟨S_, .f32⟩
  | .hbm, ⟨83, _⟩ => ⟨S32x64x64, .f32⟩
  | .hbm, ⟨84, _⟩ => ⟨S32x64x64, .f32⟩
  | .hbm, ⟨85, _⟩ => ⟨S32, .f32⟩
  | .hbm, ⟨86, _⟩ => ⟨S32x1x1, .f32⟩
  | .hbm, ⟨87, _⟩ => ⟨S32x64x64, .f32⟩
  | .hbm, ⟨88, _⟩ => ⟨S32x64x64, .f32⟩
  | .hbm, ⟨89, _⟩ => ⟨S_, .f32⟩
  | .hbm, ⟨90, _⟩ => ⟨S32x64, .f32⟩
  | .hbm, ⟨91, _⟩ => ⟨S_, .f32⟩
  | .hbm, ⟨92, _⟩ => ⟨S32x64, .f32⟩
  | .hbm, ⟨93, _⟩ => ⟨S32x64, .f32⟩
  | .hbm, ⟨94, _⟩ => ⟨S64x8, .f32⟩
  | .hbm, ⟨95, _⟩ => ⟨S32x8, .f32⟩
  | .hbm, ⟨96, _⟩ => ⟨S1x8, .f32⟩
  | .hbm, ⟨97, _⟩ => ⟨S32x8, .f32⟩
  | .hbm, ⟨98, _⟩ => ⟨S32x8, .f32⟩
  | .hbm, ⟨99, _⟩ => ⟨S_, .f32⟩
  | .hbm, ⟨100, _⟩ => ⟨S32x8, .f32⟩
  | .hbm, ⟨101, _⟩ => ⟨S32x8, .f32⟩
  | .hbm, ⟨102, _⟩ => ⟨S8x64, .f32⟩
  | .hbm, ⟨103, _⟩ => ⟨S32x64, .f32⟩
  | .hbm, ⟨104, _⟩ => ⟨S1x64, .f32⟩
  | .hbm, ⟨105, _⟩ => ⟨S32x64, .f32⟩
  | .hbm, ⟨106, _⟩ => ⟨S32x64, .f32⟩
  | .hbm, ⟨107, _⟩ => ⟨S32x64, .f32⟩
  | .hbm, ⟨108, _⟩ => ⟨S32x64, .f32⟩
  | .hbm, ⟨109, _⟩ => ⟨S_, .f32⟩
  | .hbm, ⟨110, _⟩ => ⟨S32x64, .f32⟩
  | .hbm, ⟨111, _⟩ => ⟨S32x64, .f32⟩
  | .hbm, ⟨112, _⟩ => ⟨S_, .f32⟩
  | .hbm, ⟨113, _⟩ => ⟨S32x64, .f32⟩
  | .hbm, ⟨114, _⟩ => ⟨S32x64, .f32⟩
  | .hbm, ⟨115, _⟩ => ⟨S32x64x1x1, .f32⟩
  | .hbm, ⟨116, _⟩ => ⟨S32x64x96x96, .f32⟩
  | .hbm, ⟨117, _⟩ => ⟨S32x64x96x96, .f32⟩
  | _, _ => ⟨S32x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_call0_v0 : Ref sig .tc := ⟨.hbm, 36, rfl⟩
abbrev main_call0_v6 : Ref sig .tc := ⟨.hbm, 37, rfl⟩
abbrev main_call0_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  shapeCasts_S32x64x96x96_S32x64x9216 : S32x64x96x96.ShapeCasts S32x64x9216
  reducesTo_S32x64x9216_S32x64_d2 : S32x64x9216.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  bcast_S32x64x1_S32x64x9216_0_1_2 : S32x64x1.BroadcastsInDim S32x64x9216 (![0, 1, 2] : Fin 3 → Fin S32x64x9216.rank)
  bcast_S_S32x64x64 : S_.BroadcastsInDim S32x64x64 (![] : Fin 0 → Fin S32x64x64.rank)
  bcast_S_S64x64 : S_.BroadcastsInDim S64x64 (![] : Fin 0 → Fin S64x64.rank)
  bcast_S64x64_S32x64x64_1_2 : S64x64.BroadcastsInDim S32x64x64 (![1, 2] : Fin 2 → Fin S32x64x64.rank)
  reducesTo_S32x64x64_S32_d1_2 : S32x64x64.ReducesTo [1, 2] S32
  bcast_S32_S32x1x1_0 : S32.BroadcastsInDim S32x1x1 (![0] : Fin 1 → Fin S32x1x1.rank)
  bcast_S32x1x1_S32x64x64_0_1_2 : S32x1x1.BroadcastsInDim S32x64x64 (![0, 1, 2] : Fin 3 → Fin S32x64x64.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  reducesTo_S32x64x64_S32x64_d1 : S32x64x64.ReducesTo [1] S32x64
  bcast_S_S32x64 : S_.BroadcastsInDim S32x64 (![] : Fin 0 → Fin S32x64.rank)
  transposes_S8x64_S64x8_1_0 : S8x64.Transposes [1, 0] S64x8
  bcast_S8_S1x8_1 : S8.BroadcastsInDim S1x8 (![1] : Fin 1 → Fin S1x8.rank)
  bcast_S1x8_S32x8_0_1 : S1x8.BroadcastsInDim S32x8 (![0, 1] : Fin 2 → Fin S32x8.rank)
  bcast_S_S32x8 : S_.BroadcastsInDim S32x8 (![] : Fin 0 → Fin S32x8.rank)
  transposes_S64x8_S8x64_1_0 : S64x8.Transposes [1, 0] S8x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S32x64_S32x64x1x1_0_1 : S32x64.BroadcastsInDim S32x64x1x1 (![0, 1] : Fin 2 → Fin S32x64x1x1.rank)
  bcast_S32x64x1x1_S32x64x96x96_0_1_2_3 : S32x64x1x1.BroadcastsInDim S32x64x96x96 (![0, 1, 2, 3] : Fin 4 → Fin S32x64x96x96.rank)
  dot_S32x64x9216_S32x64x9216_S32x64x64_2_2_1_1_0_0_wf : DotDims.WF S32x64x9216 S32x64x9216 S32x64x64 [2] [2] [1] [1] [0] [0]
  dot_S32x64x64_S32x64x64_S32x64x64_2_1_1_2_0_0_wf : DotDims.WF S32x64x64 S32x64x64 S32x64x64 [2] [1] [1] [2] [0] [0]
  dot_S32x64_S64x8_S32x8_1_0_0_1_n_n_wf : DotDims.WF S32x64 S64x8 S32x8 [1] [0] [0] [1] [] []
  dot_S32x8_S8x64_S32x64_1_0_0_1_n_n_wf : DotDims.WF S32x8 S8x64 S32x64 [1] [0] [0] [1] [] []

variable [Facts₀]

def dot_S32x64x9216_S32x64x9216_S32x64x64_2_2_1_1_0_0 : DotDims S32x64x9216 S32x64x9216 S32x64x64 where
  lhsContracting := [2]
  rhsContracting := [2]
  lhsNonContracting := [1]
  rhsNonContracting := [1]
  lhsBatch := [0]
  rhsBatch := [0]
  wf := dot_S32x64x9216_S32x64x9216_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S32x64_S64x8_S32x8_1_0_0_1_n_n : DotDims S32x64 S64x8 S32x8 where
  lhsContracting := [1]
  rhsContracting := [0]
  lhsNonContracting := [0]
  rhsNonContracting := [1]
  lhsBatch := []
  rhsBatch := []
  wf := dot_S32x64_S64x8_S32x8_1_0_0_1_n_n_wf
def dot_S32x8_S8x64_S32x64_1_0_0_1_n_n : DotDims S32x8 S8x64 S32x64 where
  lhsContracting := [1]
  rhsContracting := [0]
  lhsNonContracting := [0]
  rhsNonContracting := [1]
  lhsBatch := []
  rhsBatch := []
  wf := dot_S32x8_S8x64_S32x64_1_0_0_1_n_n_wf

class Facts : Prop extends Facts₀ where

variable [Facts]
-- ==== Proof.Spec.lean ====
/-
  The function both programs compute, written once as a term over the argument arrays.

  For an input x : [32, 64, 96, 96] read as 32 matrices X_b : [64, 9216] (one row per channel):
    * each row is centred by its mean (sum / 9216), and cov_b = (Xc_b · Xc_bᵀ) / 9216 : [64, 64];
    * a Newton–Schulz iteration approximates the square root of cov_b: with tr_b the trace of cov_b,
      A = cov_b / tr_b, ZY₀ = ½(3I − A), Y₀ = A·ZY₀, Z₀ = ZY₀, then three times
      ZY = ½(3I − Z)·Y, Y ← Y·ZY, Z ← ZY·Z, and finally ½·Y·(3I − Z·Y), scaled by √tr_b;
    * the column means of that matrix ([32, 64]) go through a two-layer gate:
      sigmoid(relu(s·w1ᵀ + b1)·w2ᵀ + b2), the sigmoid written 1 / (1 + exp(−·));
    * the result is x scaled channel-wise by the gate.
  Every step is the host operation the reference applies, so that the reference's run is this term by
  computation, and the kernel's two pipelined regions are compared with the first and the last step.
-/
import proofs.«164792_j15358803050800_1_alg».proof.ReferenceIdeal
import proofs.«164792_j15358803050800_1_alg».proof.Proof.Gen.ReferenceIdeal

noncomputable section

namespace Cert.Spec

open Idealize.ShloMosaic Cert.ReferenceIdeal Cert.ReferenceIdeal.Gen

variable {F : FTy → Type} [FloatOps F]

/-- Each row of the [32, 64, 9216] array minus its mean. -/
def centred (x : FVec F S32x64x9216 .f32) : FVec F S32x64x9216 .f32 :=
  subf x (broadcastInDim S32x64x9216 ![0, 1, 2] bcast_S32x64x1_S32x64x9216_0_1_2
    (Host.divf
      (broadcastInDim S32x64x1 ![0, 1] bcast_S32x64_S32x64x1_0_1
        (Host.reduceAdd x (constant S_ .f32 0x00000000#32) reducesTo_S32x64x9216_S32x64_d2 h_S_))
      (broadcastInDim S32x64x1 ![] bcast_S_S32x64x1 (constant S_ .f32 0x46100000#32))))

/-- The covariance of the 64 rows of each of the 32 matrices: centred rows, their Gram matrix, over 9216. -/
def covOf (x : FVec F S32x64x9216 .f32) : FVec F S32x64x64 .f32 :=
  Host.divf (Host.dotGeneral dot_S32x64x9216_S32x64x9216_S32x64x64_2_2_1_1_0_0 none (centred x) (centred x))
    (broadcastInDim S32x64x64 ![] bcast_S_S32x64x64 (constant S_ .f32 0x46100000#32))

/-- The mask of the diagonal of a 64 × 64 matrix. -/
def diagMask : IVec S64x64 1 :=
  cmpi .eq (addi (iotaInDim S64x64 32 0) (broadcastInDim S64x64 ![] bcast_S_S64x64 (constantI S_ 32 0#32)))
    (iotaInDim S64x64 32 1)

/-- Three times the 64 × 64 identity. -/
def eye3 : FVec F S64x64 .f32 :=
  mulf (broadcastInDim S64x64 ![] bcast_S_S64x64 (constant S_ .f32 0x40400000#32)) (uitofp .f32 diagMask)

/-- The trace of each of the 32 matrices: the sum of the entries the diagonal mask keeps. -/
def traceOf (cov : FVec F S32x64x64 .f32) : FVec F S32 .f32 :=
  Host.reduceAdd
    (select (broadcastInDim S32x64x64 ![1, 2] bcast_S64x64_S32x64x64_1_2 diagMask) cov
      (broadcastInDim S32x64x64 ![] bcast_S_S32x64x64 (constant S_ .f32 0x00000000#32)))
    (constant S_ .f32 0x00000000#32) reducesTo_S32x64x64_S32_d1_2 h_S_

/-- One number per matrix, spread over that matrix's entries. -/
def perMatrix (v : FVec F S32 .f32) : FVec F S32x64x64 .f32 :=
  broadcastInDim S32x64x64 ![0, 1, 2] bcast_S32x1x1_S32x64x64_0_1_2 (broadcastInDim S32x1x1 ![0] bcast_S32_S32x1x1_0 v)

/-- 3I, once per matrix. -/
def eyeB : FVec F S32x64x64 .f32 :=
  broadcastInDim S32x64x64 ![0, 1, 2] bcast_S1x64x64_S32x64x64_0_1_2 (broadcastInDim S1x64x64 ![1, 2] bcast_S64x64_S1x64x64_1_2 eye3)

/-- ½(3I − Z). -/
def halfStep (z : FVec F S32x64x64 .f32) : FVec F S32x64x64 .f32 :=
  mulf (broadcastInDim S32x64x64 ![] bcast_S_S32x64x64 (constant S_ .f32 0x3F000000#32)) (subf eyeB z)

/-- The product of the 32 pairs of 64 × 64 matrices. -/
def bmm (l r : FVec F S32x64x64 .f32) : FVec F S32x64x64 .f32 :=
  Host.dotGeneral dot_S32x64x64_S32x64x64_S32x64x64_2_1_1_2_0_0 none l r

/-- The matrices normalised by their traces. -/
def nsA (cov : FVec F S32x64x64 .f32) : FVec F S32x64x64 .f32 := Host.divf cov (perMatrix (traceOf cov))

def nsZY0 (cov : FVec F S32x64x64 .f32) : FVec F S32x64x64 .f32 := halfStep (nsA cov)
def nsY0 (cov : FVec F S32x64x64 .f32) : FVec F S32x64x64 .f32 := bmm (nsA cov) (nsZY0 cov)
def nsZY1 (cov : FVec F S32x64x64 .f32) : FVec F S32x64x64 .f32 := bmm (halfStep (nsZY0 cov)) (nsY0 cov)
def nsY1 (cov : FVec F S32x64x64 .f32) : FVec F S32x64x64 .f32 := bmm (nsY0 cov) (nsZY1 cov)
def nsZ1 (cov : FVec F S32x64x64 .f32) : FVec F S32x64x64 .f32 := bmm (nsZY1 cov) (nsZY0 cov)
def nsZY2 (cov : FVec F S32x64x64 .f32) : FVec F S32x64x64 .f32 := bmm (halfStep (nsZ1 cov)) (nsY1 cov)
def nsY2 (cov : FVec F S32x64x64 .f32) : FVec F S32x64x64 .f32 := bmm (nsY1 cov) (nsZY2 cov)
def nsZ2 (cov : FVec F S32x64x64 .f32) : FVec F S32x64x64 .f32 := bmm (nsZY2 cov) (nsZ1 cov)
def nsZY3 (cov : FVec F S32x64x64 .f32) : FVec F S32x64x64 .f32 := bmm (halfStep (nsZ2 cov)) (nsY2 cov)
def nsY3 (cov : FVec F S32x64x64 .f32) : FVec F S32x64x64 .f32 := bmm (nsY2 cov) (nsZY3 cov)
def nsZ3 (cov : FVec F S32x64x64 .f32) : FVec F S32x64x64 .f32 := bmm (nsZY3 cov) (nsZ2 cov)

/-- The iteration's result, ½·Y₃·(3I − Z₃·Y₃), scaled by the square root of the trace. -/
def covSqrt (cov : FVec F S32x64x64 .f32) : FVec F S32x64x64 .f32 :=
  mulf
    (mulf (broadcastInDim S32x64x64 ![] bcast_S_S32x64x64 (constant S_ .f32 0x3F000000#32))
      (bmm (nsY3 cov) (subf eyeB (bmm (nsZ3 cov) (nsY3 cov)))))
    (perMatrix (Host.sqrt (traceOf cov)))

/-- The column means of the square root: [32, 64]. -/
def pooled (cov : FVec F S32x64x64 .f32) : FVec F S32x64 .f32 :=
  Host.divf (Host.reduceAdd (covSqrt cov) (constant S_ .f32 0x00000000#32) reducesTo_S32x64x64_S32x64_d1 h_S_)
    (broadcastInDim S32x64 ![] bcast_S_S32x64 (constant S_ .f32 0x42800000#32))

/-- The hidden layer: relu(s · w1ᵀ + b1), [32, 8]. -/
def hidden (cov : FVec F S32x64x64 .f32) (w1 : FVec F S8x64 .f32) (b1 : FVec F S8 .f32) : FVec F S32x8 .f32 :=
  maximumf
    (addf (Host.dotGeneral dot_S32x64_S64x8_S32x8_1_0_0_1_n_n none (pooled cov) (transpose S64x8 [1, 0] w1 transposes_S8x64_S64x8_1_0))
      (broadcastInDim S32x8 ![0, 1] bcast_S1x8_S32x8_0_1 (broadcastInDim S1x8 ![1] bcast_S8_S1x8_1 b1)))
    (broadcastInDim S32x8 ![] bcast_S_S32x8 (constant S_ .f32 0x00000000#32))

/-- The all-ones [32, 64] array. -/
def ones : FVec F S32x64 .f32 := broadcastInDim S32x64 ![] bcast_S_S32x64 (constant S_ .f32 0x3F800000#32)

/-- The gate: 1 / (1 + exp(−(h · w2ᵀ + b2))), [32, 64]. -/
def gateOf (cov : FVec F S32x64x64 .f32) (w1 : FVec F S8x64 .f32) (b1 : FVec F S8 .f32) (w2 : FVec F S64x8 .f32)
    (b2 : FVec F S64 .f32) : FVec F S32x64 .f32 :=
  Host.divf ones
    (addf ones
      (Host.exp (Host.negf
        (addf (Host.dotGeneral dot_S32x8_S8x64_S32x64_1_0_0_1_n_n none (hidden cov w1 b1) (transpose S8x64 [1, 0] w2 transposes_S64x8_S8x64_1_0))
          (broadcastInDim S32x64 ![0, 1] bcast_S1x64_S32x64_0_1 (broadcastInDim S1x64 ![1] bcast_S64_S1x64_1 b2))))))

/-- The input scaled channel-wise by a [32, 64, 1, 1] array of factors. -/
def scaled (x : FVec F S32x64x96x96 .f32) (g4 : FVec F S32x64x1x1 .f32) : FVec F S32x64x96x96 .f32 :=
  mulf x (broadcastInDim S32x64x96x96 ![0, 1, 2, 3] bcast_S32x64x1x1_S32x64x96x96_0_1_2_3 g4)

/-- The whole function: the input scaled by the gate of its covariance. -/
def result (x : FVec F S32x64x96x96 .f32) (w1 : FVec F S8x64 .f32) (b1 : FVec F S8 .f32) (w2 : FVec F S64x8 .f32)
    (b2 : FVec F S64 .f32) : FVec F S32x64x96x96 .f32 :=
  scaled x (broadcastInDim S32x64x1x1 ![0, 1] bcast_S32x64_S32x64x1x1_0_1
    (gateOf (covOf (shapeCast S32x64x9216 x shapeCasts_S32x64x96x96_S32x64x9216)) w1 b1 w2 b2))

end Cert.Spec

end
-- ==== Proof.KernelGlue.lean ====
/-
  The kernel program's host operations read as values: the first region is entered with the input array
  reshaped to [32, 64, 9216]; between the two regions the host computes, from the first region's result
  (the covariance array) and the four weight arrays, the gate of `Cert.Spec.gateOf`, reshaped to [32, 64, 1, 1];
  the second region is entered with the input array as launched. The operations between the regions come in five
  stretches — 3I; the trace; the Newton–Schulz iteration down to the hidden layer's pre-activation; the relu; the
  output layer and the sigmoid — and each is read over any contents it may start from.
-/
import proofs.«164792_j15358803050800_1_alg».proof.Proof.Spec
import proofs.«164792_j15358803050800_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F]

/-- A buffer none of a stretch's operations writes keeps its contents. -/
local macro "keeps " L:ident : tactic => `(tactic| (
  refine StableHlo.after_of_forall_not_mem _ _ (List.forall_iff_forall_mem.mp ?_)
  simp only [$L:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Stretches
variable (X : Valuation τ sig (Elt F))

/-! ### The first stretch builds 3I and writes nothing else that is read later -/
theorem s1_v9 : StableHlo.after hostOps1 X (Proc.devRef .tc main_v9) = Cert.Spec.eye3 (F := F) := by
  after_results_simp
  rfl
theorem s1_v1 : StableHlo.after hostOps1 X (Proc.devRef .tc main_v1) = X (Proc.devRef .tc main_v1) := by keeps hostOps1
theorem s1_arg0 : StableHlo.after hostOps1 X (Proc.devRef .tc main_arg0) = X (Proc.devRef .tc main_arg0) := by keeps hostOps1
theorem s1_arg1 : StableHlo.after hostOps1 X (Proc.devRef .tc main_arg1) = X (Proc.devRef .tc main_arg1) := by keeps hostOps1
theorem s1_arg2 : StableHlo.after hostOps1 X (Proc.devRef .tc main_arg2) = X (Proc.devRef .tc main_arg2) := by keeps hostOps1
theorem s1_arg3 : StableHlo.after hostOps1 X (Proc.devRef .tc main_arg3) = X (Proc.devRef .tc main_arg3) := by keeps hostOps1
theorem s1_arg4 : StableHlo.after hostOps1 X (Proc.devRef .tc main_arg4) = X (Proc.devRef .tc main_arg4) := by keeps hostOps1

/-! ### The second stretch takes the trace of the covariance array -/
theorem s2_v10 : StableHlo.after hostOps1_1 X (Proc.devRef .tc main_v10)
    = Cert.Spec.traceOf (F := F) (X (Proc.devRef .tc main_v1)) := by
  after_results_simp
  rfl
theorem s2_v9 : StableHlo.after hostOps1_1 X (Proc.devRef .tc main_v9) = X (Proc.devRef .tc main_v9) := by keeps hostOps1_1
theorem s2_v1 : StableHlo.after hostOps1_1 X (Proc.devRef .tc main_v1) = X (Proc.devRef .tc main_v1) := by keeps hostOps1_1
theorem s2_arg0 : StableHlo.after hostOps1_1 X (Proc.devRef .tc main_arg0) = X (Proc.devRef .tc main_arg0) := by keeps hostOps1_1
theorem s2_arg1 : StableHlo.after hostOps1_1 X (Proc.devRef .tc main_arg1) = X (Proc.devRef .tc main_arg1) := by keeps hostOps1_1
theorem s2_arg2 : StableHlo.after hostOps1_1 X (Proc.devRef .tc main_arg2) = X (Proc.devRef .tc main_arg2) := by keeps hostOps1_1
theorem s2_arg3 : StableHlo.after hostOps1_1 X (Proc.devRef .tc main_arg3) = X (Proc.devRef .tc main_arg3) := by keeps hostOps1_1
theorem s2_arg4 : StableHlo.after hostOps1_1 X (Proc.devRef .tc main_arg4) = X (Proc.devRef .tc main_arg4) := by keeps hostOps1_1

end Stretches

/-! ### The third stretch: the Newton–Schulz iteration, the column means, the hidden layer before its relu -/

/-- The hidden layer before the relu, from the covariance array: s · w1ᵀ + b1. -/
def preact (cov : FVec F Cert.ReferenceIdeal.S32x64x64 .f32) (w1 : FVec F Cert.ReferenceIdeal.S8x64 .f32)
    (b1 : FVec F Cert.ReferenceIdeal.S8 .f32) : FVec F Cert.ReferenceIdeal.S32x8 .f32 :=
  addf (Host.dotGeneral Cert.ReferenceIdeal.dot_S32x64_S64x8_S32x8_1_0_0_1_n_n none (Cert.Spec.pooled cov)
      (transpose Cert.ReferenceIdeal.S64x8 [1, 0] w1 Cert.ReferenceIdeal.Gen.transposes_S8x64_S64x8_1_0))
    (broadcastInDim Cert.ReferenceIdeal.S32x8 ![0, 1] Cert.ReferenceIdeal.Gen.bcast_S1x8_S32x8_0_1
      (broadcastInDim Cert.ReferenceIdeal.S1x8 ![1] Cert.ReferenceIdeal.Gen.bcast_S8_S1x8_1 b1))

theorem hidden_eq (cov : FVec F Cert.ReferenceIdeal.S32x64x64 .f32) (w1 : FVec F Cert.ReferenceIdeal.S8x64 .f32)
    (b1 : FVec F Cert.ReferenceIdeal.S8 .f32) :
    Cert.Spec.hidden cov w1 b1 = maximumf (preact cov w1 b1)
      (broadcastInDim Cert.ReferenceIdeal.S32x8 ![] Cert.ReferenceIdeal.Gen.bcast_S_S32x8 (constant Cert.ReferenceIdeal.S_ .f32 0x00000000#32)) := rfl

/-- The sigmoid of the output layer, from the hidden layer: 1 / (1 + exp(−(h · w2ᵀ + b2))). -/
def gateFrom (h : FVec F Cert.ReferenceIdeal.S32x8 .f32) (w2 : FVec F Cert.ReferenceIdeal.S64x8 .f32)
    (b2 : FVec F Cert.ReferenceIdeal.S64 .f32) : FVec F Cert.ReferenceIdeal.S32x64 .f32 :=
  Host.divf Cert.Spec.ones
    (addf Cert.Spec.ones
      (Host.exp (Host.negf
        (addf (Host.dotGeneral Cert.ReferenceIdeal.dot_S32x8_S8x64_S32x64_1_0_0_1_n_n none h
            (transpose Cert.ReferenceIdeal.S8x64 [1, 0] w2 Cert.ReferenceIdeal.Gen.transposes_S64x8_S8x64_1_0))
          (broadcastInDim Cert.ReferenceIdeal.S32x64 ![0, 1] Cert.ReferenceIdeal.Gen.bcast_S1x64_S32x64_0_1
            (broadcastInDim Cert.ReferenceIdeal.S1x64 ![1] Cert.ReferenceIdeal.Gen.bcast_S64_S1x64_1 b2))))))

theorem gateOf_eq (cov : FVec F Cert.ReferenceIdeal.S32x64x64 .f32) (w1 : FVec F Cert.ReferenceIdeal.S8x64 .f32)
    (b1 : FVec F Cert.ReferenceIdeal.S8 .f32) (w2 : FVec F Cert.ReferenceIdeal.S64x8 .f32) (b2 : FVec F Cert.ReferenceIdeal.S64 .f32) :
    Cert.Spec.gateOf cov w1 b1 w2 b2 = gateFrom (Cert.Spec.hidden cov w1 b1) w2 b2 := rfl

section Stretches2
variable (X : Valuation τ sig (Elt F))

set_option maxHeartbeats 4000000 in
theorem s3_v62 (h9 : X (Proc.devRef .tc main_v9) = Cert.Spec.eye3 (F := F))
    (h10 : X (Proc.devRef .tc main_v10) = Cert.Spec.traceOf (F := F) (X (Proc.devRef .tc main_v1))) :
    StableHlo.after hostOps1_2 X (Proc.devRef .tc main_v62)
      = preact (F := F) (X (Proc.devRef .tc main_v1)) (X (Proc.devRef .tc main_arg1)) (X (Proc.devRef .tc main_arg2)) := by
  after_results_simp
  rw [h9, h10]
  rfl
theorem s3_arg0 : StableHlo.after hostOps1_2 X (Proc.devRef .tc main_arg0) = X (Proc.devRef .tc main_arg0) := by keeps hostOps1_2
theorem s3_arg3 : StableHlo.after hostOps1_2 X (Proc.devRef .tc main_arg3) = X (Proc.devRef .tc main_arg3) := by keeps hostOps1_2
theorem s3_arg4 : StableHlo.after hostOps1_2 X (Proc.devRef .tc main_arg4) = X (Proc.devRef .tc main_arg4) := by keeps hostOps1_2

/-! ### The fourth stretch is the relu -/
theorem s4_v63 : StableHlo.after hostOps1_3 X (Proc.devRef .tc main_v63)
    = maximumf (X (Proc.devRef .tc main_v62))
        (broadcastInDim Cert.ReferenceIdeal.S32x8 ![] Cert.ReferenceIdeal.Gen.bcast_S_S32x8 (constant (F := F) Cert.ReferenceIdeal.S_ .f32 0x00000000#32)) := by
  after_results_simp
  rfl
theorem s4_arg0 : StableHlo.after hostOps1_3 X (Proc.devRef .tc main_arg0) = X (Proc.devRef .tc main_arg0) := by keeps hostOps1_3
theorem s4_arg3 : StableHlo.after hostOps1_3 X (Proc.devRef .tc main_arg3) = X (Proc.devRef .tc main_arg3) := by keeps hostOps1_3
theorem s4_arg4 : StableHlo.after hostOps1_3 X (Proc.devRef .tc main_arg4) = X (Proc.devRef .tc main_arg4) := by keeps hostOps1_3

/-! ### The fifth stretch: the output layer, the sigmoid, the reshape to [32, 64, 1, 1] -/
theorem s5_v75 : StableHlo.after hostOps1_4 X (Proc.devRef .tc main_v75)
    = shapeCast S32x64x1x1 (gateFrom (F := F) (X (Proc.devRef .tc main_v63)) (X (Proc.devRef .tc main_arg3)) (X (Proc.devRef .tc main_arg4)))
        shapeCasts_S32x64_S32x64x1x1 := by
  after_results_simp
  rfl
theorem s5_arg0 : StableHlo.after hostOps1_4 X (Proc.devRef .tc main_arg0) = X (Proc.devRef .tc main_arg0) := by keeps hostOps1_4

end Stretches2

/-! ## The contents the regions are entered with -/

section Run
variable (m : (ℓ : Loc nD τ sig) → Buf (Elt F) ℓ) (ρ : Dev nD → PrngReg)

/-- The first region finds the input array reshaped: each [96, 96] plane flattened to a row of 9216. -/
theorem entry0_input (c : Dev nD) :
    V1 m ρ c main_v0 = shapeCast S32x64x9216 (m ((c : Thread nD τ).loc main_arg0)) shapeCasts_S32x64x96x96_S32x64x9216 := by
  show StableHlo.after hostOps0 (W0 m ρ c) (Proc.devRef .tc main_v0) = _
  after_results
  rfl

/-- No operation before the first region writes an argument array, and the region writes none. -/
theorem exit0_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem exit0_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem exit0_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem exit0_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem exit0_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

/-- The second region finds the input array as launched. -/
theorem entry1_input (c : Dev nD) : V7 m ρ c main_arg0 = m ((c : Thread nD τ).loc main_arg0) := by
  show StableHlo.after hostOps1_4 (W6 m ρ c) (Proc.devRef .tc main_arg0) = _
  rw [s5_arg0]
  show StableHlo.after hostOps1_3 (W5 m ρ c) (Proc.devRef .tc main_arg0) = _
  rw [s4_arg0]
  show StableHlo.after hostOps1_2 (W4 m ρ c) (Proc.devRef .tc main_arg0) = _
  rw [s3_arg0]
  show StableHlo.after hostOps1_1 (W3 m ρ c) (Proc.devRef .tc main_arg0) = _
  rw [s2_arg0]
  show StableHlo.after hostOps1 (W2 m ρ c) (Proc.devRef .tc main_arg0) = _
  rw [s1_arg0]
  exact exit0_arg0 m ρ c

/-- After the trace, the covariance array, 3I and the two first-layer weights are where the third stretch reads them. -/
theorem at4_v1 (c : Dev nD) : W4 m ρ c (Proc.devRef .tc main_v1) = W2 m ρ c (Proc.devRef .tc main_v1) := by
  show StableHlo.after hostOps1_1 (W3 m ρ c) (Proc.devRef .tc main_v1) = _
  rw [s2_v1]
  show StableHlo.after hostOps1 (W2 m ρ c) (Proc.devRef .tc main_v1) = _
  rw [s1_v1]
theorem at4_v9 (c : Dev nD) : W4 m ρ c (Proc.devRef .tc main_v9) = Cert.Spec.eye3 (F := F) := by
  show StableHlo.after hostOps1_1 (W3 m ρ c) (Proc.devRef .tc main_v9) = _
  rw [s2_v9]
  show StableHlo.after hostOps1 (W2 m ρ c) (Proc.devRef .tc main_v9) = _
  rw [s1_v9]
theorem at4_v10 (c : Dev nD) :
    W4 m ρ c (Proc.devRef .tc main_v10) = Cert.Spec.traceOf (F := F) (W4 m ρ c (Proc.devRef .tc main_v1)) := by
  show StableHlo.after hostOps1_1 (W3 m ρ c) (Proc.devRef .tc main_v10)
    = Cert.Spec.traceOf (StableHlo.after hostOps1_1 (W3 m ρ c) (Proc.devRef .tc main_v1))
  rw [s2_v10, s2_v1]
theorem at4_arg1 (c : Dev nD) : W4 m ρ c (Proc.devRef .tc main_arg1) = m ((c : Thread nD τ).loc main_arg1) := by
  show StableHlo.after hostOps1_1 (W3 m ρ c) (Proc.devRef .tc main_arg1) = _
  rw [s2_arg1]
  show StableHlo.after hostOps1 (W2 m ρ c) (Proc.devRef .tc main_arg1) = _
  rw [s1_arg1]
  exact exit0_arg1 m ρ c
theorem at4_arg2 (c : Dev nD) : W4 m ρ c (Proc.devRef .tc main_arg2) = m ((c : Thread nD τ).loc main_arg2) := by
  show StableHlo.after hostOps1_1 (W3 m ρ c) (Proc.devRef .tc main_arg2) = _
  rw [s2_arg2]
  show StableHlo.after hostOps1 (W2 m ρ c) (Proc.devRef .tc main_arg2) = _
  rw [s1_arg2]
  exact exit0_arg2 m ρ c
theorem at6_arg3 (c : Dev nD) : W6 m ρ c (Proc.devRef .tc main_arg3) = m ((c : Thread nD τ).loc main_arg3) := by
  show StableHlo.after hostOps1_3 (W5 m ρ c) (Proc.devRef .tc main_arg3) = _
  rw [s4_arg3]
  show StableHlo.after hostOps1_2 (W4 m ρ c) (Proc.devRef .tc main_arg3) = _
  rw [s3_arg3]
  show StableHlo.after hostOps1_1 (W3 m ρ c) (Proc.devRef .tc main_arg3) = _
  rw [s2_arg3]
  show StableHlo.after hostOps1 (W2 m ρ c) (Proc.devRef .tc main_arg3) = _
  rw [s1_arg3]
  exact exit0_arg3 m ρ c
theorem at6_arg4 (c : Dev nD) : W6 m ρ c (Proc.devRef .tc main_arg4) = m ((c : Thread nD τ).loc main_arg4) := by
  show StableHlo.after hostOps1_3 (W5 m ρ c) (Proc.devRef .tc main_arg4) = _
  rw [s4_arg4]
  show StableHlo.after hostOps1_2 (W4 m ρ c) (Proc.devRef .tc main_arg4) = _
  rw [s3_arg4]
  show StableHlo.after hostOps1_1 (W3 m ρ c) (Proc.devRef .tc main_arg4) = _
  rw [s2_arg4]
  show StableHlo.after hostOps1 (W2 m ρ c) (Proc.devRef .tc main_arg4) = _
  rw [s1_arg4]
  exact exit0_arg4 m ρ c

/-- The hidden layer, as the fifth stretch reads it. -/
theorem at6_v63 (c : Dev nD) :
    W6 m ρ c (Proc.devRef .tc main_v63)
      = Cert.Spec.hidden (F := F) (W2 m ρ c (Proc.devRef .tc main_v1)) (m ((c : Thread nD τ).loc main_arg1)) (m ((c : Thread nD τ).loc main_arg2)) := by
  show StableHlo.after hostOps1_3 (W5 m ρ c) (Proc.devRef .tc main_v63) = _
  rw [s4_v63, hidden_eq]
  show maximumf (StableHlo.after hostOps1_2 (W4 m ρ c) (Proc.devRef .tc main_v62)) _ = _
  rw [s3_v62 (W4 m ρ c) (at4_v9 m ρ c) (at4_v10 m ρ c), at4_v1, at4_arg1, at4_arg2]

/-- The second region finds, as its second window's array, the gate of the first region's result reshaped to
    [32, 64, 1, 1]. -/
theorem entry1_gate (c : Dev nD) :
    V7 m ρ c main_v75
      = shapeCast S32x64x1x1
          (Cert.Spec.gateOf (F := F) (W2 m ρ c (Proc.devRef .tc main_v1)) (m ((c : Thread nD τ).loc main_arg1))
            (m ((c : Thread nD τ).loc main_arg2)) (m ((c : Thread nD τ).loc main_arg3)) (m ((c : Thread nD τ).loc main_arg4)))
          shapeCasts_S32x64_S32x64x1x1 := by
  show StableHlo.after hostOps1_4 (W6 m ρ c) (Proc.devRef .tc main_v75) = _
  rw [s5_v75, gateOf_eq, at6_v63, at6_arg3, at6_arg4]

end Run

/-! ## A [32, 64] array reshaped to [32, 64, 1, 1] is that array broadcast along two new unit axes -/

theorem reshape_eq_broadcast {α : Type} (g : Cert.ReferenceIdeal.S32x64.Idx → α) :
    shapeCast S32x64x1x1 g shapeCasts_S32x64_S32x64x1x1
      = broadcastInDim Cert.ReferenceIdeal.S32x64x1x1 ![0, 1] Cert.ReferenceIdeal.Gen.bcast_S32x64_S32x64x1x1_0_1 g := by
  funext j
  have h2 : (j 2).val = 0 := by have := (j 2).isLt; simp at this; omega
  have h3 : (j 3).val = 0 := by have := (j 3).isLt; simp at this; omega
  rw [shapeCast_apply g _ j (ValueIdx.ix2 (j 0) (j 1)) (by
      rw [Shape.rowMajor_val_two, Shape.rowMajor_val_four, h2, h3]
      show (j 0).val * 64 + (j 1).val = (((j 0).val * 64 + (j 1).val) * 1 + 0) * 1 + 0
      omega),
    broadcastInDim_apply ![0, 1] _ g j (ValueIdx.ix2 (j 0) (j 1)) (fun a => by
      match a with
      | ⟨0, _⟩ => rfl
      | ⟨1, _⟩ => rfl)]

/-! ## The kernel program's result -/

/-- Given the two regions' values — the first leaves the covariance of its input window's array in its output array,
    the second its first array scaled by its second — the result array at the last boundary is `Cert.Spec.result` of the
    launch contents of the five arguments. -/
theorem result_eq
    (hcov : ∀ (V : (c : Dev nD) → (b : Ref sig .tc) → Buf (Elt F) ((c : Thread nD τ).loc b)) (c : Dev nD),
      (dat0 (F := F) V c).arrAt 1 cfg0.N = Cert.Spec.covOf (F := F) (V c main_v0))
    (hgate : ∀ (V : (c : Dev nD) → (b : Ref sig .tc) → Buf (Elt F) ((c : Thread nD τ).loc b)) (c : Dev nD),
      (dat1 (F := F) V c).arrAt 2 cfg1.N = Cert.Spec.scaled (F := F) (V c main_arg0) (V c main_v75))
    (m : (ℓ : Loc nD τ sig) → Buf (Elt F) ℓ) (ρ : Dev nD → PrngReg) (c : Dev nD) :
    W8 m ρ c (Proc.devRef .tc main_v76)
      = Cert.Spec.result (F := F) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W8_arr m ρ c 2).trans ?_
  rw [hgate, entry1_input, entry1_gate]
  have hc : W2 m ρ c (Proc.devRef .tc main_v1) = Cert.Spec.covOf (F := F) (V1 m ρ c main_v0) :=
    (W2_arr m ρ c 1).trans (hcov (V1 m ρ) c)
  rw [hc, entry0_input, reshape_eq_broadcast]
  rfl

end Cert.KernelIdeal.Glue

end
-- ==== Proof.CovRegion.lean ====
/-
  The first pipelined region's value: the covariance of the rows.

  The input array x : [32, 64, 9216] is 32 matrices of 64 rows of 9216 entries. The region walks eight points;
  point t takes batch rows 4t … 4t + 3 as a [4, 64, 9216] block and writes the [4, 64, 64] block of the same batch
  rows of the output. On a block the body takes each row's sum over its 9216 entries, divides it by 9216, takes
  that mean off the row, multiplies the centred block with itself along the row axis (batch row by batch row,
  into a zero accumulator) and divides by 9216. The reference does the same to the whole array with the host's
  operations: a sum from the initial value 0, two broadcasts in place of the cast and spread, a batched product
  with no accumulator.

  Both are read at one index. With dev u k = u k − (Σ u) / 9216 and covRows u v = (Σ_k dev u k · dev v k) / 9216:
    * entry (bb, p, q) of the body's payload on a block is covRows of the block's rows (bb, p) and (bb, q);
    * entry (b, p, q) of the reference's covariance is covRows of the array's rows (b, p) and (b, q).
  The only arithmetic law used is 0 + s = s, for the host sum's initial value and the product's zero accumulator;
  the division is the same function on both sides and the 9216 the same word. Since row (bb, ·) of point t's block
  is row (4t + bb, ·) of the array, point t writes block t of the array's covariance, and the eight blocks tile
  the output: batch row b lies in block b / 4.
-/
import proofs.«164792_j15358803050800_1_alg».proof.Proof.Spec
import proofs.«164792_j15358803050800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.CovRegion

open Cert.KernelIdeal Cert.KernelIdeal.Gen Idealize.ShloMosaic Idealize.ShloMosaic.TcCoe Idealize.SL.Sem
open Idealize.ShloMosaic.ValueIdx
open scoped BigOperators

/-- The number of entries of a row, 9216, as the ideal value of its f32 word. -/
def cnt : EReal := Ideal.ofBits .f32 0x46100000#32

/-- A row's entry minus the row's mean. -/
def dev (u : Fin 9216 → EReal) (k : Fin 9216) : EReal := u k - Ideal.div (∑ k' : Fin 9216, u k') cnt

/-- The covariance of two rows: the mean of the products of their deviations. -/
def covRows (u v : Fin 9216 → EReal) : EReal := Ideal.div (∑ k : Fin 9216, dev u k * dev v k) cnt

/-- A block's row sums: the lane reduction over the last axis at (bb, p) is the sum of that row's entries. -/
theorem rowSum_blk (x0 : FVec Ideal S4x64x9216 .f32) (hacc : (0x00000000#32 : BitVec 32) = 0x00000000#32) (bb : Fin 4) (p : Fin 64) :
    multiReduction .add [2] S4x64 x0 0x00000000#32 reduces_S4x64x9216_S4x64 (.inl rfl) hacc (ix2 bb p)
      = ∑ k : Fin 9216, x0 (ix3 bb p k) := by
  refine (Ideal.multiReduction_add_single x0 0x00000000#32 reduces_S4x64x9216_S4x64 (.inl rfl) hacc (ix2 bb p)).trans ?_
  refine Finset.sum_congr rfl fun k _ => congrArg x0 ?_
  funext a
  match a with
  | ⟨0, _⟩ => rfl
  | ⟨1, _⟩ => rfl
  | ⟨2, _⟩ => rfl

/-- The row sums given a trailing unit axis: entry (bb, p, 0) is the row sum at (bb, p). -/
theorem colCast_blk (s : (⟨2, ![4, 64]⟩ : Shape).Idx → EReal) (bb : Fin 4) (p : Fin 64) (z : Fin 1) :
    shapeCast S4x64x1 s shapeCasts_S4x64_S4x64x1 (ix3 bb p z) = s (ix2 bb p) := by
  refine shapeCast_apply s shapeCasts_S4x64_S4x64x1 (ix3 bb p z) (ix2 bb p) ?_
  rw [Shape.rowMajor_val_two, Shape.rowMajor_val_three]
  have hz : z.val = 0 := by omega
  show bb.val * 64 + p.val = (bb.val * 64 + p.val) * 1 + z.val
  omega

/-- A column spread over the row's 9216 positions: entry (bb, p, k) is the column's entry (bb, p, 0). -/
theorem spread_blk (m : (⟨3, ![4, 64, 1]⟩ : Shape).Idx → EReal) (bb : Fin 4) (p : Fin 64) (k : Fin 9216) :
    broadcastTo S4x64x9216 m broadcasts_S4x64x1_S4x64x9216 (ix3 bb p k) = m (ix3 bb p (0 : Fin 1)) := by
  refine broadcastTo_apply m broadcasts_S4x64x1_S4x64x9216 (ix3 bb p k) (ix3 bb p (0 : Fin 1)) ?_
  intro a
  match a with
  | ⟨0, _⟩ => rfl
  | ⟨1, _⟩ => rfl
  | ⟨2, _⟩ => rfl

/-- The block with each row's mean taken off, as the body computes it: the lane sum, given a unit axis, over 9216,
    spread back over the row and subtracted. -/
def blkCentred (x0 : FVec Ideal S4x64x9216 .f32) : FVec Ideal S4x64x9216 .f32 :=
  subf x0 (broadcastTo S4x64x9216
    (divf (shapeCast S4x64x1 (multiReduction .add [2] S4x64 x0 0x00000000#32 reduces_S4x64x9216_S4x64 (.inl rfl) rfl) shapeCasts_S4x64_S4x64x1)
      (broadcast S4x64x1 (Scalar.ofBits .f32 0x46100000#32)))
    broadcasts_S4x64x1_S4x64x9216)

/-- Its entry (bb, p, k) is row (bb, p)'s deviation at k. -/
theorem blkCentred_apply (x0 : FVec Ideal S4x64x9216 .f32) (bb : Fin 4) (p : Fin 64) (k : Fin 9216) :
    blkCentred x0 (ix3 bb p k) = dev (fun k' => x0 (ix3 bb p k')) k := by
  unfold blkCentred dev cnt
  show x0 (ix3 bb p k) - broadcastTo S4x64x9216 _ broadcasts_S4x64x1_S4x64x9216 (ix3 bb p k) = _
  rw [spread_blk]
  show x0 (ix3 bb p k) - Ideal.div (shapeCast S4x64x1 _ shapeCasts_S4x64_S4x64x1 (ix3 bb p (0 : Fin 1))) (Ideal.ofBits .f32 0x46100000#32) = _
  rw [colCast_blk, rowSum_blk]

/-! The block product's operand indices, axis by axis: the batch axis and the row axis read the output index, the
    contracted axis reads the contraction index. -/
theorem lhsBlk_0 (j : S4x64x64.Idx) (k : dot_S4x64x9216_S4x64x9216_S4x64x64_2_2_1_1_0_0.contr.Idx) :
    (dot_S4x64x9216_S4x64x9216_S4x64x64_2_2_1_1_0_0.lhsIdx j k (0 : Fin 3)).val = (j 0).val := rfl
theorem lhsBlk_1 (j : S4x64x64.Idx) (k : dot_S4x64x9216_S4x64x9216_S4x64x64_2_2_1_1_0_0.contr.Idx) :
    (dot_S4x64x9216_S4x64x9216_S4x64x64_2_2_1_1_0_0.lhsIdx j k (1 : Fin 3)).val = (j 1).val := rfl
theorem lhsBlk_2 (j : S4x64x64.Idx) (k : dot_S4x64x9216_S4x64x9216_S4x64x64_2_2_1_1_0_0.contr.Idx) :
    (dot_S4x64x9216_S4x64x9216_S4x64x64_2_2_1_1_0_0.lhsIdx j k (2 : Fin 3)).val = (k ⟨0, by decide⟩).val := rfl
theorem rhsBlk_0 (j : S4x64x64.Idx) (k : dot_S4x64x9216_S4x64x9216_S4x64x64_2_2_1_1_0_0.contr.Idx) :
    (dot_S4x64x9216_S4x64x9216_S4x64x64_2_2_1_1_0_0.rhsIdx j k (0 : Fin 3)).val = (j 0).val := rfl
theorem rhsBlk_1 (j : S4x64x64.Idx) (k : dot_S4x64x9216_S4x64x9216_S4x64x64_2_2_1_1_0_0.contr.Idx) :
    (dot_S4x64x9216_S4x64x9216_S4x64x64_2_2_1_1_0_0.rhsIdx j k (1 : Fin 3)).val = (j 2).val := rfl
theorem rhsBlk_2 (j : S4x64x64.Idx) (k : dot_S4x64x9216_S4x64x9216_S4x64x64_2_2_1_1_0_0.contr.Idx) :
    (dot_S4x64x9216_S4x64x9216_S4x64x64_2_2_1_1_0_0.rhsIdx j k (2 : Fin 3)).val = (k ⟨0, by decide⟩).val := rfl

/-- The block product of a vector with itself into zero, at (bb, p, q): the sum over the row positions of the
    products of rows (bb, p) and (bb, q). -/
theorem gram_blk (y : FVec Ideal S4x64x9216 .f32) (bb : Fin 4) (p q : Fin 64) :
    matmul dot_S4x64x9216_S4x64x9216_S4x64x64_2_2_1_1_0_0 none y y (constant S4x64x64 .f32 0x00000000#32) (ix3 bb p q)
      = ∑ k : Fin 9216, y (ix3 bb p k) * y (ix3 bb q k) := by
  refine (Ideal.matmul_constant_zero_apply dot_S4x64x9216_S4x64x9216_S4x64x64_2_2_1_1_0_0 none y y (ix3 bb p q)).trans ?_
  rw [← Equiv.sum_comp (contrEquiv1 dot_S4x64x9216_S4x64x9216_S4x64x64_2_2_1_1_0_0 9216 rfl rfl).symm]
  refine Finset.sum_congr rfl fun k _ => ?_
  have hk := contrEquiv1_symm_val dot_S4x64x9216_S4x64x9216_S4x64x64_2_2_1_1_0_0 9216 rfl rfl k
  have el : dot_S4x64x9216_S4x64x9216_S4x64x64_2_2_1_1_0_0.lhsIdx (ix3 bb p q)
      ((contrEquiv1 dot_S4x64x9216_S4x64x9216_S4x64x64_2_2_1_1_0_0 9216 rfl rfl).symm k) = ix3 bb p k := by
    funext a
    refine Fin.ext ?_
    match a with
    | ⟨0, _⟩ => exact lhsBlk_0 _ _
    | ⟨1, _⟩ => exact lhsBlk_1 _ _
    | ⟨2, _⟩ => exact (lhsBlk_2 _ _).trans hk
  have er : dot_S4x64x9216_S4x64x9216_S4x64x64_2_2_1_1_0_0.rhsIdx (ix3 bb p q)
      ((contrEquiv1 dot_S4x64x9216_S4x64x9216_S4x64x64_2_2_1_1_0_0 9216 rfl rfl).symm k) = ix3 bb q k := by
    funext a
    refine Fin.ext ?_
    match a with
    | ⟨0, _⟩ => exact rhsBlk_0 _ _
    | ⟨1, _⟩ => exact rhsBlk_1 _ _
    | ⟨2, _⟩ => exact (rhsBlk_2 _ _).trans hk
  rw [el, er]

/-- The body's payload is the block product of the centred block with itself, over 9216. -/
theorem pay_eq (x0 : Vec Ideal S4x64x9216 .f32) :
    k0_pay1 x0 = divf (matmul dot_S4x64x9216_S4x64x9216_S4x64x64_2_2_1_1_0_0 none (blkCentred x0) (blkCentred x0)
        (constant S4x64x64 .f32 0x00000000#32)) (broadcast S4x64x64 (Scalar.ofBits .f32 0x46100000#32)) := by
  unfold k0_pay1 blkCentred
  simp only [shapeCast_self]

/-- THE PAYLOAD AT AN INDEX: entry (bb, p, q) of what the body stores is the covariance of rows (bb, p) and (bb, q)
    of the block it loaded. -/
theorem pay_apply (x0 : Vec Ideal S4x64x9216 .f32) (bb : Fin 4) (p q : Fin 64) :
    k0_pay1 x0 (ix3 bb p q) = covRows (fun k => x0 (ix3 bb p k)) (fun k => x0 (ix3 bb q k)) := by
  rw [pay_eq]
  show Ideal.div (matmul dot_S4x64x9216_S4x64x9216_S4x64x64_2_2_1_1_0_0 none (blkCentred x0) (blkCentred x0)
        (constant S4x64x64 .f32 0x00000000#32) (ix3 bb p q)) (Ideal.ofBits .f32 0x46100000#32) = _
  rw [gram_blk]
  unfold covRows cnt
  refine congrArg (fun s => Ideal.div s (Ideal.ofBits .f32 0x46100000#32)) ?_
  refine Finset.sum_congr rfl fun k _ => ?_
  rw [blkCentred_apply, blkCentred_apply]

/-! ## The reference's covariance at an index -/

/-- The whole array's row sums from the initial value zero: at (b, p) zero plus the sum of that row's entries. -/
theorem rowSum_arr (X : FVec Ideal Cert.ReferenceIdeal.S32x64x9216 .f32) (b : Fin 32) (p : Fin 64) :
    Host.reduceAdd (F := Ideal) X (constant (F := Ideal) Cert.ReferenceIdeal.S_ .f32 0x00000000#32)
        Cert.ReferenceIdeal.Gen.reducesTo_S32x64x9216_S32x64_d2 Cert.ReferenceIdeal.Gen.h_S_ (ix2 b p)
      = ∑ k : Fin 9216, X (ix3 b p k) := by
  have hr : Cert.ReferenceIdeal.S32x64x9216.Reduces [2] Cert.ReferenceIdeal.S32x64 := by decide
  show Ideal.hostReduceAdd _ X (Ideal.ofBits .f32 0x00000000#32) (ix2 b p) = _
  rw [Ideal.hostReduceAdd_single Cert.ReferenceIdeal.Gen.reducesTo_S32x64x9216_S32x64_d2 hr, Ideal.ofBits_zero_f32, zero_add]
  refine Finset.sum_congr rfl fun k _ => congrArg X ?_
  funext a
  match a with
  | ⟨0, _⟩ => rfl
  | ⟨1, _⟩ => rfl
  | ⟨2, _⟩ => rfl

/-- The row sums given a trailing unit axis (the reference's way): entry (b, p, 0) is the row sum at (b, p). -/
theorem col_arr (s : (⟨2, ![32, 64]⟩ : Shape).Idx → EReal) (b : Fin 32) (p : Fin 64) (z : Fin 1) :
    broadcastInDim Cert.ReferenceIdeal.S32x64x1 ![0, 1] Cert.ReferenceIdeal.Gen.bcast_S32x64_S32x64x1_0_1 s (ix3 b p z) = s (ix2 b p) := by
  refine broadcastInDim_apply ![0, 1] Cert.ReferenceIdeal.Gen.bcast_S32x64_S32x64x1_0_1 s (ix3 b p z) (ix2 b p) ?_
  intro a
  match a with
  | ⟨0, _⟩ => rfl
  | ⟨1, _⟩ => rfl

/-- A column spread over the row's 9216 positions (the reference's way): entry (b, p, k) is the column's (b, p, 0). -/
theorem spread_arr (m : (⟨3, ![32, 64, 1]⟩ : Shape).Idx → EReal) (b : Fin 32) (p : Fin 64) (k : Fin 9216) :
    broadcastInDim Cert.ReferenceIdeal.S32x64x9216 ![0, 1, 2] Cert.ReferenceIdeal.Gen.bcast_S32x64x1_S32x64x9216_0_1_2 m (ix3 b p k)
      = m (ix3 b p (0 : Fin 1)) := by
  refine broadcastInDim_apply ![0, 1, 2] Cert.ReferenceIdeal.Gen.bcast_S32x64x1_S32x64x9216_0_1_2 m (ix3 b p k) (ix3 b p (0 : Fin 1)) ?_
  intro a
  match a with
  | ⟨0, _⟩ => rfl
  | ⟨1, _⟩ => rfl
  | ⟨2, _⟩ => rfl

/-- The reference's centred array at (b, p, k): row (b, p)'s deviation at k. -/
theorem centred_apply (X : FVec Ideal Cert.ReferenceIdeal.S32x64x9216 .f32) (b : Fin 32) (p : Fin 64) (k : Fin 9216) :
    Cert.Spec.centred (F := Ideal) X (ix3 b p k) = dev (fun k' => X (ix3 b p k')) k := by
  unfold Cert.Spec.centred dev cnt
  show X (ix3 b p k) - broadcastInDim (s := Cert.ReferenceIdeal.S32x64x1) Cert.ReferenceIdeal.S32x64x9216 ![0, 1, 2] _ _ (ix3 b p k) = _
  rw [spread_arr]
  show X (ix3 b p k) - Ideal.div (broadcastInDim (s := Cert.ReferenceIdeal.S32x64) Cert.ReferenceIdeal.S32x64x1 ![0, 1] _ _ (ix3 b p (0 : Fin 1)))
    (Ideal.ofBits .f32 0x46100000#32) = _
  rw [col_arr, rowSum_arr]

/-! The reference product's operand indices, axis by axis, as for the block's. -/
theorem lhsArr_0 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.lhsIdx j k (0 : Fin 3)).val = (j 0).val := rfl
theorem lhsArr_1 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.lhsIdx j k (1 : Fin 3)).val = (j 1).val := rfl
theorem lhsArr_2 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.lhsIdx j k (2 : Fin 3)).val = (k ⟨0, by decide⟩).val := rfl
theorem rhsArr_0 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.rhsIdx j k (0 : Fin 3)).val = (j 0).val := rfl
theorem rhsArr_1 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.rhsIdx j k (1 : Fin 3)).val = (j 2).val := rfl
theorem rhsArr_2 (j : Cert.ReferenceIdeal.S32x64x64.Idx) (k : Cert.ReferenceIdeal.dot_S32x64x9216_S32x64x9216_S32x64x64_2_2_1_1_0_0.contr.Idx) :
    (Cert.ReferenceIdeal.dot_S32x64x9216_S32x64x9216_S32x64x64_2_2_1_1_0_0.rhsIdx j k (2 : Fin 3)).val = (k ⟨0, by decide⟩).val := rfl

/-- The reference's batched product of an array with itself, at (b, p, q): the sum over the row positions of the
    products of rows (b, p) and (b, q). -/
theorem gram_arr (Y : FVec Ideal Cert.ReferenceIdeal.S32x64x9216 .f32) (b : Fin 32) (p q : Fin 64) :
    Host.dotGeneral Cert.ReferenceIdeal.dot_S32x64x9216_S32x64x9216_S32x64x64_2_2_1_1_0_0 none Y Y (ix3 b p q)
      = ∑ k : Fin 9216, Y (ix3 b p k) * Y (ix3 b q k) := by
  refine (Ideal.dotGeneral_apply Cert.ReferenceIdeal.dot_S32x64x9216_S32x64x9216_S32x64x64_2_2_1_1_0_0 none .single Y Y (ix3 b p q)).trans ?_
  rw [← Equiv.sum_comp (contrEquiv1 Cert.ReferenceIdeal.dot_S32x64x9216_S32x64x9216_S32x64x64_2_2_1_1_0_0 9216 rfl rfl).symm]
  refine Finset.sum_congr rfl fun k _ => ?_
  have hk := contrEquiv1_symm_val Cert.ReferenceIdeal.dot_S32x64x9216_S32x64x9216_S32x64x64_2_2_1_1_0_0 9216 rfl rfl k
  have el : Cert.ReferenceIdeal.dot_S32x64x9216_S32x64x9216_S32x64x64_2_2_1_1_0_0.lhsIdx (ix3 b p q)
      ((contrEquiv1 Cert.ReferenceIdeal.dot_S32x64x9216_S32x64x9216_S32x64x64_2_2_1_1_0_0 9216 rfl rfl).symm k) = ix3 b p k := by
    funext a
    refine Fin.ext ?_
    match a with
    | ⟨0, _⟩ => exact lhsArr_0 _ _
    | ⟨1, _⟩ => exact lhsArr_1 _ _
    | ⟨2, _⟩ => exact (lhsArr_2 _ _).trans hk
  have er : Cert.ReferenceIdeal.dot_S32x64x9216_S32x64x9216_S32x64x64_2_2_1_1_0_0.rhsIdx (ix3 b p q)
      ((contrEquiv1 Cert.ReferenceIdeal.dot_S32x64x9216_S32x64x9216_S32x64x64_2_2_1_1_0_0 9216 rfl rfl).symm k) = ix3 b q k := by
    funext a
    refine Fin.ext ?_
    match a with
    | ⟨0, _⟩ => exact rhsArr_0 _ _
    | ⟨1, _⟩ => exact rhsArr_1 _ _
    | ⟨2, _⟩ => exact (rhsArr_2 _ _).trans hk
  rw [el, er]

/-- THE REFERENCE AT AN INDEX: entry (b, p, q) of the covariance array is the covariance of rows (b, p) and (b, q)
    of the input array. -/
theorem cov_apply (X : FVec Ideal Cert.ReferenceIdeal.S32x64x9216 .f32) (b : Fin 32) (p q : Fin 64) :
    Cert.Spec.covOf (F := Ideal) X (ix3 b p q) = covRows (fun k => X (ix3 b p k)) (fun k => X (ix3 b q k)) := by
  unfold Cert.Spec.covOf
  show Ideal.div (Host.dotGeneral Cert.ReferenceIdeal.dot_S32x64x9216_S32x64x9216_S32x64x64_2_2_1_1_0_0 none
      (Cert.Spec.centred (F := Ideal) X) (Cert.Spec.centred (F := Ideal) X) (ix3 b p q)) (Ideal.ofBits .f32 0x46100000#32) = _
  rw [gram_arr]
  unfold covRows cnt
  refine congrArg (fun s => Ideal.div s (Ideal.ofBits .f32 0x46100000#32)) ?_
  refine Finset.sum_congr rfl fun k _ => ?_
  rw [centred_apply, centred_apply]

/-- A BLOCK AGAINST THE ARRAY: if batch row bb of a block is batch row r of the array, entry (bb, p, q) of the body's
    payload on the block is entry (r, p, q) of the array's covariance. -/
theorem pay_eq_cov (X : FVec Ideal Cert.ReferenceIdeal.S32x64x9216 .f32) (x0 : Vec Ideal S4x64x9216 .f32) (r : Fin 32) (bb : Fin 4)
    (hrow : ∀ (p : Fin 64) (k : Fin 9216), x0 (ix3 bb p k) = X (ix3 r p k)) (p q : Fin 64) :
    k0_pay1 x0 (ix3 bb p q) = Cert.Spec.covOf (F := Ideal) X (ix3 r p q) := by
  rw [pay_apply, cov_apply]
  refine congrArg₂ covRows (funext fun k => hrow p k) (funext fun k => hrow q k)

/-- The same, over a general index j of the block and the array index i it is stored at. -/
theorem pay_at (X : FVec Ideal Cert.ReferenceIdeal.S32x64x9216 .f32) (x0 : Vec Ideal S4x64x9216 .f32) (j : S4x64x64.Idx)
    (i : Cert.ReferenceIdeal.S32x64x64.Idx) (r : Fin 32) (h0 : (i 0).val = r.val) (h1 : (i 1).val = (j 1).val) (h2 : (i 2).val = (j 2).val)
    (hrow : ∀ (p : Fin 64) (k : Fin 9216), x0 (ix3 (j 0) p k) = X (ix3 r p k)) :
    k0_pay1 x0 j = Cert.Spec.covOf (F := Ideal) X i := by
  have ei : i = ix3 r (j 1) (j 2) := by
    funext a
    refine Fin.ext ?_
    match a with
    | ⟨0, _⟩ => exact h0
    | ⟨1, _⟩ => exact h1
    | ⟨2, _⟩ => exact h2
  rw [ei, eq_ix3 j]
  exact pay_eq_cov X x0 r (j 0) hrow (j 1) (j 2)

/-! ## From the blocks to the array -/

section Region
variable (V : (c : Dev nD) → (b : Ref sig .tc) → Buf (Elt Ideal) ((c : Thread nD τ).loc b))

theorem zero3 : (![0, 0, 0] : Fin 3 → Nat) = fun _ => 0 := funext fun a => by fin_cases a <;> rfl

/-- The two windows' index maps over the grid: at point t both name block t along the batch axis and block 0 along
    the other two. -/
theorem idx_at : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input window's block at point t is batch rows 4t … 4t + 3 of the input array. -/
theorem iblk_apply (c : Dev nD) (t : Fin cfg0.N) (x : S4x64x9216.Idx) (i : S32x64x9216.Idx)
    (h0 : (i 0).val = 4 * t.val + (x 0).val) (h1 : (i 1).val = (x 1).val) (h2 : (i 2).val = (x 2).val) :
    (iblk0 V c 0 t : Vec Ideal S4x64x9216 .f32) x = (V c main_v0 : S32x64x9216.Idx → Elt Ideal .f32) i := by
  obtain ⟨e0, e1, e2, -, -, -⟩ := idx_at t
  unfold iblk0
  rw [View.read_apply]
  show V c main_v0 _ = V c main_v0 _
  congr 1
  funext a
  apply Fin.ext
  match a with
  | ⟨0, _⟩ => show win0_0.index t (0 : Fin 3) * 4 + 1 * (x 0).val = (i 0).val; rw [e0, h0]; omega
  | ⟨1, _⟩ => show win0_0.index t (1 : Fin 3) * 64 + 1 * (x 1).val = (i 1).val; rw [e1, h1]; omega
  | ⟨2, _⟩ => show win0_0.index t (2 : Fin 3) * 9216 + 1 * (x 2).val = (i 2).val; rw [e2, h2]; omega

/-- WHAT POINT t WRITES BACK is block t of the covariance of the input array as the region finds it: the body's one
    store covers the staging buffer, its load reads the whole input block, and entry (bb, p, q) of the payload on
    batch rows 4t … 4t + 3 is entry (4t + bb, p, q) of the array's covariance. -/
theorem flushed_eq (c : Dev nD) (t : Fin cfg0.N) :
    (dat0 (F := Ideal) V c).flushed 1 t
      = ((cfg0.win 1).blk t).view.read (Elt Ideal) (Cert.Spec.covOf (F := Ideal) (V c main_v0)) := by
  show (cfg0.win 1).cut (grid0.coords t) ((dat0 (F := Ideal) V c).after 1 t) = _
  rw [after0_1]
  unfold out0_1
  rw [View.canon_unit_zero zero3]
  simp only [View.ld_unit_zero (S := S4x64x9216) zero3]
  obtain ⟨-, -, -, e3, e4, e5⟩ := idx_at t
  have hN : grid0.N = 8 := N_0
  have ht : t.val < 8 := hN ▸ t.isLt
  funext j
  have hj0 : (j 0).val < 4 := (j 0).isLt
  show k0_pay1 (iblk0 V c 0 t) j = Cert.Spec.covOf (F := Ideal) (V c main_v0) (((cfg0.win 1).blk t).view.emb j)
  refine pay_at (V c main_v0) (iblk0 V c 0 t) j (((cfg0.win 1).blk t).view.emb j) ⟨4 * t.val + (j 0).val, by omega⟩ ?_ ?_ ?_ ?_
  · show win0_1.index t (0 : Fin 3) * 4 + 1 * (j 0).val = 4 * t.val + (j 0).val
    rw [e3]; omega
  · show win0_1.index t (1 : Fin 3) * 64 + 1 * (j 1).val = (j 1).val
    rw [e4]; omega
  · show win0_1.index t (2 : Fin 3) * 64 + 1 * (j 2).val = (j 2).val
    rw [e5]; omega
  · intro p k
    exact iblk_apply V c t (ix3 (j 0) p k) (ix3 ⟨4 * t.val + (j 0).val, by omega⟩ p k) rfl rfl rfl

/-- An index of the output array is in point t's block iff each coordinate is in the block's range on its axis. -/
theorem mem_blk (t : Fin cfg0.N) (i : S32x64x64.Idx) :
    i ∈ ((cfg0.win 1).blk t).view.set
      ↔ ∀ a : Fin 3, win0_1.index t a * S4x64x64.size a ≤ (i a).val ∧ (i a).val < win0_1.index t a * S4x64x64.size a + S4x64x64.size a := by
  show i ∈ ((View.whole main_v1).slice (win0_1.rect t)).set ↔ _
  rw [View.set_slice_whole, Rect.mem_set_unit]
  exact Iff.rfl

/-- Every index of the output array is in the block of the point its batch row names: row b lies in block b / 4. -/
theorem covered (i : S32x64x64.Idx) :
    ∃ t : Fin cfg0.N, (cfg0.win 1).flush t = true ∧ i ∈ ((cfg0.win 1).blk t).view.set := by
  have hN : grid0.N = 8 := N_0
  have hi0 : (i 0).val < 32 := (i 0).isLt
  have hi1 : (i 1).val < 64 := (i 1).isLt
  have hi2 : (i 2).val < 64 := (i 2).isLt
  refine ⟨⟨(i 0).val / 4, by show (i 0).val / 4 < grid0.N; rw [hN]; omega⟩, flush0_1 _, ?_⟩
  rw [mem_blk]
  obtain ⟨-, -, -, e3, e4, e5⟩ := idx_at ⟨(i 0).val / 4, by show (i 0).val / 4 < grid0.N; rw [hN]; omega⟩
  intro a
  match a with
  | ⟨0, _⟩ =>
    show win0_1.index _ (0 : Fin 3) * 4 ≤ (i 0).val ∧ (i 0).val < win0_1.index _ (0 : Fin 3) * 4 + 4
    rw [e3]; show (i 0).val / 4 * 4 ≤ (i 0).val ∧ (i 0).val < (i 0).val / 4 * 4 + 4; omega
  | ⟨1, _⟩ =>
    show win0_1.index _ (1 : Fin 3) * 64 ≤ (i 1).val ∧ (i 1).val < win0_1.index _ (1 : Fin 3) * 64 + 64
    rw [e4]; omega
  | ⟨2, _⟩ =>
    show win0_1.index _ (2 : Fin 3) * 64 ≤ (i 2).val ∧ (i 2).val < win0_1.index _ (2 : Fin 3) * 64 + 64
    rw [e5]; omega

/-- THE REGION'S VALUE: after the eight points the output array holds the covariance of the input array. -/
theorem cov_final (c : Dev nD) :
    (dat0 (F := Ideal) V c).arrAt 1 cfg0.N = Cert.Spec.covOf (F := Ideal) (V c main_v0) :=
  (dat0 (F := Ideal) V c).arrAt_eq_of_cover 1 (Cert.Spec.covOf (F := Ideal) (V c main_v0)) (fun t _ => flushed_eq V c t) covered

end Region

end Cert.KernelIdeal.CovRegion

end
-- ==== Proof.GateRegion.lean ====
/-
  The second pipelined region, read as a value. The region walks the batch axis in eight steps of four rows; at each step it
  multiplies a [4, 64, 96, 96] block of the input by the matching [4, 64, 1, 1] block of factors, one factor per
  (batch row, channel) pair spread over the 96 × 96 positions, and writes the product back as the same four rows of the result.
  Entry (b, ch, h, w) of the result is therefore x(b, ch, h, w) · g(b, ch, 0, 0): the specification's last step, with no
  algebra between the two sides. The eight blocks are disjoint and cover all 32 rows, row b lying in block b / 4.
-/
import proofs.«164792_j15358803050800_1_alg».proof.Proof.Spec
import proofs.«164792_j15358803050800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.GateRegion

open Cert.KernelIdeal Cert.KernelIdeal.Gen Idealize.ShloMosaic Idealize.ShloMosaic.TcCoe Idealize.SL.Sem
open Idealize.ShloMosaic.ValueIdx

/-- The zero offsets of a whole-block access, however spelt. -/
theorem zeros4 : (![0, 0, 0, 0] : Fin 4 → Nat) = fun _ => 0 := funext fun a => by fin_cases a <;> rfl

/-! ## The two products, entry by entry -/

/-- One block of the gate kernel's result: the block of the input times the block of factors, the factor of a
    (batch row, channel) pair shared by all 96 × 96 positions. -/
theorem gate_block_apply (x0 : Vec Ideal S4x64x96x96 .f32) (x1 : Vec Ideal S4x64x1x1 .f32)
    (bb : Fin 4) (ch : Fin 64) (h w : Fin 96) :
    k1_pay1 x0 x1 (ix4 bb ch h w) = x0 (ix4 bb ch h w) * x1 (ix4 bb ch 0 0) := by
  unfold k1_pay1
  rw [shapeCast_self, mulf_apply]
  refine congrArg (x0 (ix4 bb ch h w) * ·) ?_
  refine broadcastTo_apply x1 _ (ix4 bb ch h w) (ix4 bb ch 0 0) fun a => ?_
  match a with
  | ⟨0, _⟩ => rfl
  | ⟨1, _⟩ => rfl
  | ⟨2, _⟩ => rfl
  | ⟨3, _⟩ => rfl

/-- The specification's last step at an entry: x(b, ch, h, w) · g(b, ch, 0, 0). -/
theorem scaled_apply (X : FVec Ideal S32x64x96x96 .f32) (G : FVec Ideal S32x64x1x1 .f32)
    (b : Fin 32) (ch : Fin 64) (h w : Fin 96) :
    Cert.Spec.scaled X G (ix4 b ch h w) = X (ix4 b ch h w) * G (ix4 b ch 0 0) := by
  unfold Cert.Spec.scaled
  rw [mulf_apply]
  refine congrArg (X (ix4 b ch h w) * ·) ?_
  refine broadcastInDim_apply _ _ G (ix4 b ch h w) (ix4 b ch 0 0) fun a => ?_
  match a with
  | ⟨0, _⟩ => rfl
  | ⟨1, _⟩ => rfl
  | ⟨2, _⟩ => rfl
  | ⟨3, _⟩ => rfl

/-- Block `q` of the product is the product of blocks `q`: if `x0` is rows 4q … 4q + 3 of `X` and `x1` the same rows
    of `G`, the kernel's block at `y` is the specification at the entry `i` of row 4q + y₀ with `y`'s other coordinates. -/
theorem block_of_scaled (X : FVec Ideal S32x64x96x96 .f32) (G : FVec Ideal S32x64x1x1 .f32)
    (x0 : Vec Ideal S4x64x96x96 .f32) (x1 : Vec Ideal S4x64x1x1 .f32) (q : Nat)
    (hx0 : ∀ (y : S4x64x96x96.Idx) (k : S32x64x96x96.Idx), (k 0).val = q * 4 + (y 0).val → (k 1).val = (y 1).val →
      (k 2).val = (y 2).val → (k 3).val = (y 3).val → x0 y = X k)
    (hx1 : ∀ (y : S4x64x1x1.Idx) (k : S32x64x1x1.Idx), (k 0).val = q * 4 + (y 0).val → (k 1).val = (y 1).val →
      (k 2).val = (y 2).val → (k 3).val = (y 3).val → x1 y = G k)
    (y : S4x64x96x96.Idx) (i : S32x64x96x96.Idx) (h0 : (i 0).val = q * 4 + (y 0).val) (h1 : (i 1).val = (y 1).val)
    (h2 : (i 2).val = (y 2).val) (h3 : (i 3).val = (y 3).val) :
    k1_pay1 x0 x1 y = Cert.Spec.scaled X G i := by
  obtain ⟨bb, ch, h, w, rfl⟩ : ∃ (bb : Fin 4) (ch : Fin 64) (h w : Fin 96), y = ix4 bb ch h w := ⟨y 0, y 1, y 2, y 3, eq_ix4 y⟩
  obtain ⟨b, ch', h', w', rfl⟩ : ∃ (b : Fin 32) (ch' : Fin 64) (h' w' : Fin 96), i = ix4 b ch' h' w' := ⟨i 0, i 1, i 2, i 3, eq_ix4 i⟩
  obtain rfl : ch' = ch := Fin.ext h1
  obtain rfl : h' = h := Fin.ext h2
  obtain rfl : w' = w := Fin.ext h3
  rw [gate_block_apply, scaled_apply, hx0 (ix4 bb ch' h' w') (ix4 b ch' h' w') h0 rfl rfl rfl,
    hx1 (ix4 bb ch' 0 0) (ix4 b ch' 0 0) h0 rfl rfl rfl]

/-! ## The blocks the pipeline moves -/

/-- The three index maps over the grid: at point `t` each window is on block `t` along the batch axis and on block 0 along the
    others. -/
theorem block_indices : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0) :=
  (by decide +kernel : ∀ t : Fin grid1.N, _)

variable (V : (c : Dev nD) → (b : Ref sig .tc) → Buf (Elt Ideal) ((c : Thread nD τ).loc b))

/-- The input window's block at point `t` is batch rows 4t … 4t + 3 of the input. -/
theorem input_block_apply (c : Dev nD) (t : Fin cfg1.N) (y : S4x64x96x96.Idx) (k : S32x64x96x96.Idx)
    (h0 : (k 0).val = t.val * 4 + (y 0).val) (h1 : (k 1).val = (y 1).val) (h2 : (k 2).val = (y 2).val) (h3 : (k 3).val = (y 3).val) :
    (iblk1 V c 0 t : Vec Ideal S4x64x96x96 .f32) y = (V c main_arg0 : S32x64x96x96.Idx → Elt Ideal .f32) k := by
  obtain ⟨⟨e0, e1, e2, e3⟩, -, -⟩ := block_indices t
  unfold iblk1
  rw [View.read_apply]
  show V c main_arg0 _ = V c main_arg0 _
  refine congrArg (V c main_arg0) (funext fun a => Fin.ext ?_)
  match a with
  | ⟨0, _⟩ => show win1_0.index t (0 : Fin 4) * 4 + 1 * (y 0).val = (k 0).val; rw [e0, h0]; omega
  | ⟨1, _⟩ => show win1_0.index t (1 : Fin 4) * 64 + 1 * (y 1).val = (k 1).val; rw [e1, h1]; omega
  | ⟨2, _⟩ => show win1_0.index t (2 : Fin 4) * 96 + 1 * (y 2).val = (k 2).val; rw [e2, h2]; omega
  | ⟨3, _⟩ => show win1_0.index t (3 : Fin 4) * 96 + 1 * (y 3).val = (k 3).val; rw [e3, h3]; omega

/-- The factor window's block at point `t` is the same batch rows of the factors. -/
theorem factor_block_apply (c : Dev nD) (t : Fin cfg1.N) (y : S4x64x1x1.Idx) (k : S32x64x1x1.Idx)
    (h0 : (k 0).val = t.val * 4 + (y 0).val) (h1 : (k 1).val = (y 1).val) (h2 : (k 2).val = (y 2).val) (h3 : (k 3).val = (y 3).val) :
    (iblk1 V c 1 t : Vec Ideal S4x64x1x1 .f32) y = (V c main_v75 : S32x64x1x1.Idx → Elt Ideal .f32) k := by
  obtain ⟨-, ⟨e0, e1, e2, e3⟩, -⟩ := block_indices t
  unfold iblk1
  rw [View.read_apply]
  show V c main_v75 _ = V c main_v75 _
  refine congrArg (V c main_v75) (funext fun a => Fin.ext ?_)
  match a with
  | ⟨0, _⟩ => show win1_1.index t (0 : Fin 4) * 4 + 1 * (y 0).val = (k 0).val; rw [e0, h0]; omega
  | ⟨1, _⟩ => show win1_1.index t (1 : Fin 4) * 64 + 1 * (y 1).val = (k 1).val; rw [e1, h1]; omega
  | ⟨2, _⟩ => show win1_1.index t (2 : Fin 4) * 1 + 1 * (y 2).val = (k 2).val; rw [e2, h2]; omega
  | ⟨3, _⟩ => show win1_1.index t (3 : Fin 4) * 1 + 1 * (y 3).val = (k 3).val; rw [e3, h3]; omega

/-- What point `t` writes back is block `t` of the scaled input. -/
theorem flushed_scaled (c : Dev nD) (t : Fin cfg1.N) :
    (dat1 (F := Ideal) V c).flushed 2 t
      = ((cfg1.win 2).blk t).view.read (Elt Ideal) (Cert.Spec.scaled (F := Ideal) (V c main_arg0) (V c main_v75)) := by
  show (cfg1.win 2).cut (grid1.coords t) ((dat1 V c).after 2 t) = _
  rw [after1_2]
  unfold out1_2
  rw [View.canon_unit_zero zeros4]
  simp only [View.ld_unit_zero (S := S4x64x96x96) zeros4, View.ld_unit_zero (S := S4x64x1x1) zeros4]
  obtain ⟨-, -, ⟨e0, e1, e2, e3⟩⟩ := block_indices t
  funext j
  rw [View.read_apply]
  refine block_of_scaled (V c main_arg0) (V c main_v75) (iblk1 V c 0 t) (iblk1 V c 1 t) t.val
    (fun y k => input_block_apply V c t y k) (fun y k => factor_block_apply V c t y k) _ _ ?_ ?_ ?_ ?_
  · show (win1_2.index t (0 : Fin 4) * 4 + 1 * (j 0).val) = t.val * 4 + (j 0).val; rw [e0]; omega
  · show (win1_2.index t (1 : Fin 4) * 64 + 1 * (j 1).val) = (j 1).val; rw [e1]; omega
  · show (win1_2.index t (2 : Fin 4) * 96 + 1 * (j 2).val) = (j 2).val; rw [e2]; omega
  · show (win1_2.index t (3 : Fin 4) * 96 + 1 * (j 3).val) = (j 3).val; rw [e3]; omega

/-! ## The blocks tile the array -/

/-- An index of the output array is in point `t`'s block iff each coordinate is in the block's range on its axis. -/
theorem mem_out_block (t : Fin cfg1.N) (i : S32x64x96x96.Idx) :
    i ∈ ((cfg1.win 2).blk t).view.set
      ↔ ∀ a : Fin 4, win1_2.index t a * S4x64x96x96.size a ≤ (i a).val ∧ (i a).val < win1_2.index t a * S4x64x96x96.size a + S4x64x96x96.size a := by
  show i ∈ ((View.whole main_v76).slice (win1_2.rect t)).set ↔ _
  rw [View.set_slice_whole, Rect.mem_set_unit]
  exact Iff.rfl

/-- Batch row `b` is written back by point `b / 4`. -/
theorem out_blocks_cover (i : S32x64x96x96.Idx) :
    ∃ t : Fin cfg1.N, (cfg1.win 2).flush t = true ∧ i ∈ ((cfg1.win 2).blk t).view.set := by
  have hi0 : (i 0).val < 32 := (i 0).isLt
  have hi1 : (i 1).val < 64 := (i 1).isLt
  have hi2 : (i 2).val < 96 := (i 2).isLt
  have hi3 : (i 3).val < 96 := (i 3).isLt
  have hN : cfg1.N = 8 := rfl
  let t : Fin cfg1.N := ⟨(i 0).val / 4, by rw [hN]; omega⟩
  have ht : t.val = (i 0).val / 4 := rfl
  obtain ⟨-, -, ⟨e0, e1, e2, e3⟩⟩ := block_indices t
  refine ⟨t, flush1_2 t, ?_⟩
  rw [mem_out_block]
  intro a
  match a with
  | ⟨0, _⟩ => show win1_2.index t (0 : Fin 4) * 4 ≤ (i 0).val ∧ (i 0).val < win1_2.index t (0 : Fin 4) * 4 + 4; rw [e0, ht]; omega
  | ⟨1, _⟩ => show win1_2.index t (1 : Fin 4) * 64 ≤ (i 1).val ∧ (i 1).val < win1_2.index t (1 : Fin 4) * 64 + 64; rw [e1]; omega
  | ⟨2, _⟩ => show win1_2.index t (2 : Fin 4) * 96 ≤ (i 2).val ∧ (i 2).val < win1_2.index t (2 : Fin 4) * 96 + 96; rw [e2]; omega
  | ⟨3, _⟩ => show win1_2.index t (3 : Fin 4) * 96 ≤ (i 3).val ∧ (i 3).val < win1_2.index t (3 : Fin 4) * 96 + 96; rw [e3]; omega

/-! ## The region's value -/

/-- After the region the output array is the input scaled channel-wise by the factors. -/
theorem gated_final (c : Dev nD) :
    (dat1 (F := Ideal) V c).arrAt 2 cfg1.N = Cert.Spec.scaled (F := Ideal) (V c main_arg0) (V c main_v75) :=
  (dat1 V c).arrAt_eq_of_cover 2 (Cert.Spec.scaled (F := Ideal) (V c main_arg0) (V c main_v75))
    (fun t _ => flushed_scaled V c t) out_blocks_cover

end Cert.KernelIdeal.GateRegion

end
-- ==== Proof.RefRun.lean ====
/-
  The reference's run. Its @main is a straight line of host operations once its three module-local functions are
  unfolded at their calls: the trace of the covariance (a diagonal mask, a select against zero, a sum over both matrix
  axes), inside it the select's own function, and the rectifier of the gate's hidden layer. The line is listed once,
  in order; every weakly fair execution of @main ends with each buffer at the fold of that line over the launch
  contents, and the fold at the result buffer is the composed term `Cert.Spec.result` of the five arguments, which are
  themselves left as they were.
-/
import proofs.«164792_j15358803050800_1_alg».proof.Proof.Spec
import proofs.«164792_j15358803050800_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the centring and the covariance (thirteen), three times the
    identity (ten), the trace's twelve written into its call's buffers (the select's two among them into the nested
    call's), the Newton–Schulz steps and the scaling by the root of the trace, the column means, the first layer, the
    rectifier's three into its call's buffers, the second layer, the sigmoid and the final product. -/
abbrev ops : List (HloOp τ sig (Elt F)) :=
  [ reshape main_arg0 main_v0 rfl shapeCasts_S32x64x96x96_S32x64x9216,
    nullary main_cst (constant S_ .f32 0x00000000#32),
    binary main_v0 main_cst main_v1 ((fun x v => Host.reduceAdd x v reducesTo_S32x64x9216_S32x64_d2 h_S_) : (⟨S32x64x9216, .f32⟩ : BufTy).Contents (Elt F) → (⟨S_, .f32⟩ : BufTy).Contents (Elt F) → (⟨S32x64, .f32⟩ : BufTy).Contents (Elt F)),
    unary main_v1 main_v2 (broadcastInDim S32x64x1 ![0, 1] bcast_S32x64_S32x64x1_0_1 : (⟨S32x64, .f32⟩ : BufTy).Contents (Elt F) → (⟨S32x64x1, .f32⟩ : BufTy).Contents (Elt F)),
    nullary main_cst_0 (constant S_ .f32 0x46100000#32),
    unary main_cst_0 main_v3 (broadcastInDim S32x64x1 ![] bcast_S_S32x64x1 : (⟨S_, .f32⟩ : BufTy).Contents (Elt F) → (⟨S32x64x1, .f32⟩ : BufTy).Contents (Elt F)),
    binary main_v2 main_v3 main_v4 (Host.divf : (⟨S32x64x1, .f32⟩ : BufTy).Contents (Elt F) → (⟨S32x64x1, .f32⟩ : BufTy).Contents (Elt F) → (⟨S32x64x1, .f32⟩ : BufTy).Contents (Elt F)),
    unary main_v4 main_v5 (broadcastInDim S32x64x9216 ![0, 1, 2] bcast_S32x64x1_S32x64x9216_0_1_2 : (⟨S32x64x1, .f32⟩ : BufTy).Contents (Elt F) → (⟨S32x64x9216, .f32⟩ : BufTy).Contents (Elt F)),
    binary main_v0 main_v5 main_v6 (subf : (⟨S32x64x9216, .f32⟩ : BufTy).Contents (Elt F) → (⟨S32x64x9216, .f32⟩ : BufTy).Contents (Elt F) → (⟨S32x64x9216, .f32⟩ : BufTy).Contents (Elt F)),
    binary main_v6 main_v6 main_v7 ((fun l r => Host.dotGeneral dot_S32x64x9216_S32x64x9216_S32x64x64_2_2_1_1_0_0 none l r) : (⟨S32x64x9216, .f32⟩ : BufTy).Contents (Elt F) → (⟨S32x64x9216, .f32⟩ : BufTy).Contents (Elt F) → (⟨S32x64x64, .f32⟩ : BufTy).Contents (Elt F)),
    nullary main_cst_1 (constant S_ .f32 0x46100000#32),
    unary main_cst_1 main_v8 (broadcastInDim S32x64x64 ![] bcast_S_S32x64x64 : (⟨S_, .f32⟩ : BufTy).Contents (Elt F) → (⟨S32x64x64, .f32⟩ : BufTy).Contents (Elt F)),
    binary main_v7 main_v8 main_v9 (Host.divf : (⟨S32x64x64, .f32⟩ : BufTy).Contents (Elt F) → (⟨S32x64x64, .f32⟩ : BufTy).Contents (Elt F) → (⟨S32x64x64, .f32⟩ : BufTy).Contents (Elt F)),
    nullary main_v10 (iotaInDim S64x64 32 0),
    nullary main_v11 (iotaInDim S64x64 32 1),
    nullary main_c (constantI S_ 32 0#32),
    unary main_c main_v12 (broadcastInDim S64x64 ![] bcast_S_S64x64 : (⟨S_, .i32⟩ : BufTy).Contents (Elt F) → (⟨S64x64, .i32⟩ : BufTy).Contents (Elt F)),
    binary main_v10 main_v12 main_v13 (addi : (⟨S64x64, .i32⟩ : BufTy).Contents (Elt F) → (⟨S64x64, .i32⟩ : BufTy).Contents (Elt F) → (⟨S64x64, .i32⟩ : BufTy).Contents (Elt F)),
    binary main_v13 main_v11 main_v14 (cmpi .eq : (⟨S64x64, .i32⟩ : BufTy).Contents (Elt F) → (⟨S64x64, .i32⟩ : BufTy).Contents (Elt F) → (⟨S64x64, .i1⟩ : BufTy).Contents (Elt F)),
    unary main_v14 main_v15 (uitofp .f32 : (⟨S64x64, .i1⟩ : BufTy).Contents (Elt F) → (⟨S64x64, .f32⟩ : BufTy).Contents (Elt F)),
    nullary main_cst_2 (constant S_ .f32 0x40400000#32),
    unary main_cst_2 main_v16 (broadcastInDim S64x64 ![] bcast_S_S64x64 : (⟨S_, .f32⟩ : BufTy).Contents (Elt F) → (⟨S64x64, .f32⟩ : BufTy).Contents (Elt F)),
    binary main_v16 main_v15 main_v17 (mulf : (⟨S64x64, .f32⟩ : BufTy).Contents (Elt F) → (⟨S64x64, .f32⟩ : BufTy).Contents (Elt F) → (⟨S64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S32x64x64 ![] bcast_S_S32x64x64),
    TRef.unary main_call0.v4 main_call0.call0.v0 (broadcastInDim S32x64x64 ![1, 2] bcast_S64x64_S32x64x64_1_2),
    TRef.ternary main_call0.call0.v0 (.of main_v9) main_call0.v5 main_call0.call0.v1 select,
    TRef.nullary main_call0.cst_0 (constant S_ .f32 0x00000000#32),
    TRef.binary main_call0.call0.v1 main_call0.cst_0 main_call0.v7 (fun x v => Host.reduceAdd x v reducesTo_S32x64x64_S32_d1_2 h_S_),
    unary main_v18 main_v19 (broadcastInDim S32x1x1 ![0] bcast_S32_S32x1x1_0 : (⟨S32, .f32⟩ : BufTy).Contents (Elt F) → (⟨S32x1x1, .f32⟩ : BufTy).Contents (Elt F)),
    unary main_v19 main_v20 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v9 main_v20 main_v21 (Host.divf : (⟨S32x64x64, .f32⟩ : BufTy).Contents (Elt F) → (⟨S32x64x64, .f32⟩ : BufTy).Contents (Elt F) → (⟨S32x64x64, .f32⟩ : BufTy).Contents (Elt F)),
    unary main_v17 main_v22 (broadcastInDim S1x64x64 ![1, 2] bcast_S64x64_S1x64x64_1_2 : (⟨S64x64, .f32⟩ : BufTy).Contents (Elt F) → (⟨S1x64x64, .f32⟩ : BufTy).Contents (Elt F)),
    unary main_v22 main_v23 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v23 main_v21 main_v24 (subf : (⟨S32x64x64, .f32⟩ : BufTy).Contents (Elt F) → (⟨S32x64x64, .f32⟩ : BufTy).Contents (Elt F) → (⟨S32x64x64, .f32⟩ : BufTy).Contents (Elt F)),
    nullary main_cst_3 (constant S_ .f32 0x3F000000#32),
    unary main_cst_3 main_v25 (broadcastInDim S32x64x64 ![] bcast_S_S32x64x64 : (⟨S_, .f32⟩ : BufTy).Contents (Elt F) → (⟨S32x64x64, .f32⟩ : BufTy).Contents (Elt F)),
    binary main_v25 main_v24 main_v26 (mulf : (⟨S32x64x64, .f32⟩ : BufTy).Contents (Elt F) → (⟨S32x64x64, .f32⟩ : BufTy).Contents (Elt F) → (⟨S32x64x64, .f32⟩ : BufTy).Contents (Elt F)),
    binary main_v21 main_v26 main_v27 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    unary main_v17 main_v28 (broadcastInDim S1x64x64 ![1, 2] bcast_S64x64_S1x64x64_1_2 : (⟨S64x64, .f32⟩ : BufTy).Contents (Elt F) → (⟨S1x64x64, .f32⟩ : BufTy).Contents (Elt F)),
    unary main_v28 main_v29 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v29 main_v26 main_v30 (subf : (⟨S32x64x64, .f32⟩ : BufTy).Contents (Elt F) → (⟨S32x64x64, .f32⟩ : BufTy).Contents (Elt F) → (⟨S32x64x64, .f32⟩ : BufTy).Contents (Elt F)),
    nullary main_cst_4 (constant S_ .f32 0x3F000000#32),
    unary main_cst_4 main_v31 (broadcastInDim S32x64x64 ![] bcast_S_S32x64x64 : (⟨S_, .f32⟩ : BufTy).Contents (Elt F) → (⟨S32x64x64, .f32⟩ : BufTy).Contents (Elt F)),
    binary main_v31 main_v30 main_v32 (mulf : (⟨S32x64x64, .f32⟩ : BufTy).Contents (Elt F) → (⟨S32x64x64, .f32⟩ : BufTy).Contents (Elt F) → (⟨S32x64x64, .f32⟩ : BufTy).Contents (Elt F)),
    binary main_v32 main_v27 main_v33 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v27 main_v33 main_v34 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v33 main_v26 main_v35 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    unary main_v17 main_v36 (broadcastInDim S1x64x64 ![1, 2] bcast_S64x64_S1x64x64_1_2 : (⟨S64x64, .f32⟩ : BufTy).Contents (Elt F) → (⟨S1x64x64, .f32⟩ : BufTy).Contents (Elt F)),
    unary main_v36 main_v37 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v37 main_v35 main_v38 (subf : (⟨S32x64x64, .f32⟩ : BufTy).Contents (Elt F) → (⟨S32x64x64, .f32⟩ : BufTy).Contents (Elt F) → (⟨S32x64x64, .f32⟩ : BufTy).Contents (Elt F)),
    nullary main_cst_5 (constant S_ .f32 0x3F000000#32),
    unary main_cst_5 main_v39 (broadcastInDim S32x64x64 ![] bcast_S_S32x64x64 : (⟨S_, .f32⟩ : BufTy).Contents (Elt F) → (⟨S32x64x64, .f32⟩ : BufTy).Contents (Elt F)),
    binary main_v39 main_v38 main_v40 (mulf : (⟨S32x64x64, .f32⟩ : BufTy).Contents (Elt F) → (⟨S32x64x64, .f32⟩ : BufTy).Contents (Elt F) → (⟨S32x64x64, .f32⟩ : BufTy).Contents (Elt F)),
    binary main_v40 main_v34 main_v41 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v34 main_v41 main_v42 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v41 main_v35 main_v43 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    unary main_v17 main_v44 (broadcastInDim S1x64x64 ![1, 2] bcast_S64x64_S1x64x64_1_2 : (⟨S64x64, .f32⟩ : BufTy).Contents (Elt F) → (⟨S1x64x64, .f32⟩ : BufTy).Contents (Elt F)),
    unary main_v44 main_v45 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v45 main_v43 main_v46 (subf : (⟨S32x64x64, .f32⟩ : BufTy).Contents (Elt F) → (⟨S32x64x64, .f32⟩ : BufTy).Contents (Elt F) → (⟨S32x64x64, .f32⟩ : BufTy).Contents (Elt F)),
    nullary main_cst_6 (constant S_ .f32 0x3F000000#32),
    unary main_cst_6 main_v47 (broadcastInDim S32x64x64 ![] bcast_S_S32x64x64 : (⟨S_, .f32⟩ : BufTy).Contents (Elt F) → (⟨S32x64x64, .f32⟩ : BufTy).Contents (Elt F)),
    binary main_v47 main_v46 main_v48 (mulf : (⟨S32x64x64, .f32⟩ : BufTy).Contents (Elt F) → (⟨S32x64x64, .f32⟩ : BufTy).Contents (Elt F) → (⟨S32x64x64, .f32⟩ : BufTy).Contents (Elt F)),
    binary main_v48 main_v42 main_v49 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v42 main_v49 main_v50 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v49 main_v43 main_v51 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v51 main_v50 main_v52 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    unary main_v17 main_v53 (broadcastInDim S1x64x64 ![1, 2] bcast_S64x64_S1x64x64_1_2 : (⟨S64x64, .f32⟩ : BufTy).Contents (Elt F) → (⟨S1x64x64, .f32⟩ : BufTy).Contents (Elt F)),
    unary main_v53 main_v54 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v54 main_v52 main_v55 (subf : (⟨S32x64x64, .f32⟩ : BufTy).Contents (Elt F) → (⟨S32x64x64, .f32⟩ : BufTy).Contents (Elt F) → (⟨S32x64x64, .f32⟩ : BufTy).Contents (Elt F)),
    binary main_v50 main_v55 main_v56 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_7 (constant S_ .f32 0x3F000000#32),
    unary main_cst_7 main_v57 (broadcastInDim S32x64x64 ![] bcast_S_S32x64x64 : (⟨S_, .f32⟩ : BufTy).Contents (Elt F) → (⟨S32x64x64, .f32⟩ : BufTy).Contents (Elt F)),
    binary main_v57 main_v56 main_v58 (mulf : (⟨S32x64x64, .f32⟩ : BufTy).Contents (Elt F) → (⟨S32x64x64, .f32⟩ : BufTy).Contents (Elt F) → (⟨S32x64x64, .f32⟩ : BufTy).Contents (Elt F)),
    unary main_v18 main_v59 (Host.sqrt : (⟨S32, .f32⟩ : BufTy).Contents (Elt F) → (⟨S32, .f32⟩ : BufTy).Contents (Elt F)),
    unary main_v59 main_v60 (broadcastInDim S32x1x1 ![0] bcast_S32_S32x1x1_0 : (⟨S32, .f32⟩ : BufTy).Contents (Elt F) → (⟨S32x1x1, .f32⟩ : BufTy).Contents (Elt F)),
    unary main_v60 main_v61 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v58 main_v61 main_v62 (mulf : (⟨S32x64x64, .f32⟩ : BufTy).Contents (Elt F) → (⟨S32x64x64, .f32⟩ : BufTy).Contents (Elt F) → (⟨S32x64x64, .f32⟩ : BufTy).Contents (Elt F)),
    nullary main_cst_8 (constant S_ .f32 0x00000000#32),
    binary main_v62 main_cst_8 main_v63 ((fun x v => Host.reduceAdd x v reducesTo_S32x64x64_S32x64_d1 h_S_) : (⟨S32x64x64, .f32⟩ : BufTy).Contents (Elt F) → (⟨S_, .f32⟩ : BufTy).Contents (Elt F) → (⟨S32x64, .f32⟩ : BufTy).Contents (Elt F)),
    nullary main_cst_9 (constant S_ .f32 0x42800000#32),
    unary main_cst_9 main_v64 (broadcastInDim S32x64 ![] bcast_S_S32x64 : (⟨S_, .f32⟩ : BufTy).Contents (Elt F) → (⟨S32x64, .f32⟩ : BufTy).Contents (Elt F)),
    binary main_v63 main_v64 main_v65 (Host.divf : (⟨S32x64, .f32⟩ : BufTy).Contents (Elt F) → (⟨S32x64, .f32⟩ : BufTy).Contents (Elt F) → (⟨S32x64, .f32⟩ : BufTy).Contents (Elt F)),
    unary main_arg1 main_v66 ((transpose S64x8 [1, 0] · transposes_S8x64_S64x8_1_0) : (⟨S8x64, .f32⟩ : BufTy).Contents (Elt F) → (⟨S64x8, .f32⟩ : BufTy).Contents (Elt F)),
    binary main_v65 main_v66 main_v67 ((fun l r => Host.dotGeneral dot_S32x64_S64x8_S32x8_1_0_0_1_n_n none l r) : (⟨S32x64, .f32⟩ : BufTy).Contents (Elt F) → (⟨S64x8, .f32⟩ : BufTy).Contents (Elt F) → (⟨S32x8, .f32⟩ : BufTy).Contents (Elt F)),
    unary main_arg2 main_v68 (broadcastInDim S1x8 ![1] bcast_S8_S1x8_1 : (⟨S8, .f32⟩ : BufTy).Contents (Elt F) → (⟨S1x8, .f32⟩ : BufTy).Contents (Elt F)),
    unary main_v68 main_v69 (broadcastInDim S32x8 ![0, 1] bcast_S1x8_S32x8_0_1 : (⟨S1x8, .f32⟩ : BufTy).Contents (Elt F) → (⟨S32x8, .f32⟩ : BufTy).Contents (Elt F)),
    binary main_v67 main_v69 main_v70 (addf : (⟨S32x8, .f32⟩ : BufTy).Contents (Elt F) → (⟨S32x8, .f32⟩ : BufTy).Contents (Elt F) → (⟨S32x8, .f32⟩ : BufTy).Contents (Elt F)),
    TRef.nullary main_call1.cst (constant S_ .f32 0x00000000#32),
    TRef.unary main_call1.cst main_call1.v0 (broadcastInDim S32x8 ![] bcast_S_S32x8),
    TRef.binary (.of main_v70) main_call1.v0 main_call1.v1 maximumf,
    unary main_arg3 main_v72 ((transpose S8x64 [1, 0] · transposes_S64x8_S8x64_1_0) : (⟨S64x8, .f32⟩ : BufTy).Contents (Elt F) → (⟨S8x64, .f32⟩ : BufTy).Contents (Elt F)),
    binary main_v71 main_v72 main_v73 ((fun l r => Host.dotGeneral dot_S32x8_S8x64_S32x64_1_0_0_1_n_n none l r) : (⟨S32x8, .f32⟩ : BufTy).Contents (Elt F) → (⟨S8x64, .f32⟩ : BufTy).Contents (Elt F) → (⟨S32x64, .f32⟩ : BufTy).Contents (Elt F)),
    unary main_arg4 main_v74 (broadcastInDim S1x64 ![1] bcast_S64_S1x64_1 : (⟨S64, .f32⟩ : BufTy).Contents (Elt F) → (⟨S1x64, .f32⟩ : BufTy).Contents (Elt F)),
    unary main_v74 main_v75 (broadcastInDim S32x64 ![0, 1] bcast_S1x64_S32x64_0_1 : (⟨S1x64, .f32⟩ : BufTy).Contents (Elt F) → (⟨S32x64, .f32⟩ : BufTy).Contents (Elt F)),
    binary main_v73 main_v75 main_v76 (addf : (⟨S32x64, .f32⟩ : BufTy).Contents (Elt F) → (⟨S32x64, .f32⟩ : BufTy).Contents (Elt F) → (⟨S32x64, .f32⟩ : BufTy).Contents (Elt F)),
    unary main_v76 main_v77 (Host.negf : (⟨S32x64, .f32⟩ : BufTy).Contents (Elt F) → (⟨S32x64, .f32⟩ : BufTy).Contents (Elt F)),
    unary main_v77 main_v78 (Host.exp : (⟨S32x64, .f32⟩ : BufTy).Contents (Elt F) → (⟨S32x64, .f32⟩ : BufTy).Contents (Elt F)),
    nullary main_cst_10 (constant S_ .f32 0x3F800000#32),
    unary main_cst_10 main_v79 (broadcastInDim S32x64 ![] bcast_S_S32x64 : (⟨S_, .f32⟩ : BufTy).Contents (Elt F) → (⟨S32x64, .f32⟩ : BufTy).Contents (Elt F)),
    binary main_v79 main_v78 main_v80 (addf : (⟨S32x64, .f32⟩ : BufTy).Contents (Elt F) → (⟨S32x64, .f32⟩ : BufTy).Contents (Elt F) → (⟨S32x64, .f32⟩ : BufTy).Contents (Elt F)),
    nullary main_cst_11 (constant S_ .f32 0x3F800000#32),
    unary main_cst_11 main_v81 (broadcastInDim S32x64 ![] bcast_S_S32x64 : (⟨S_, .f32⟩ : BufTy).Contents (Elt F) → (⟨S32x64, .f32⟩ : BufTy).Contents (Elt F)),
    binary main_v81 main_v80 main_v82 (Host.divf : (⟨S32x64, .f32⟩ : BufTy).Contents (Elt F) → (⟨S32x64, .f32⟩ : BufTy).Contents (Elt F) → (⟨S32x64, .f32⟩ : BufTy).Contents (Elt F)),
    unary main_v82 main_v83 (broadcastInDim S32x64x1x1 ![0, 1] bcast_S32x64_S32x64x1x1_0_1 : (⟨S32x64, .f32⟩ : BufTy).Contents (Elt F) → (⟨S32x64x1x1, .f32⟩ : BufTy).Contents (Elt F)),
    unary main_v83 main_v84 (broadcastInDim S32x64x96x96 ![0, 1, 2, 3] bcast_S32x64x1x1_S32x64x96x96_0_1_2_3 : (⟨S32x64x1x1, .f32⟩ : BufTy).Contents (Elt F) → (⟨S32x64x96x96, .f32⟩ : BufTy).Contents (Elt F)),
    binary main_arg0 main_v84 main_v85 (mulf : (⟨S32x64x96x96, .f32⟩ : BufTy).Contents (Elt F) → (⟨S32x64x96x96, .f32⟩ : BufTy).Contents (Elt F) → (⟨S32x64x96x96, .f32⟩ : BufTy).Contents (Elt F)) ]

set_option maxRecDepth 8192 in
set_option maxHeartbeats 4000000 in
/-- @main is that straight line: the two windows and the three functions unfolded, the records at their fields, both
    sides are one chain of `hlo` steps once sequencing is re-associated. -/
theorem main_eq (c : Dev nD) : main (F := F) c = seq ops := by
  simp only [main, main_part0, main_part1, fn_trace.body, fn_where.body, fn_relu.body, seq, bind_assoc, pure_bind]

attribute [local irreducible] Host.reduceAdd in
set_option maxRecDepth 65536 in
set_option maxHeartbeats 4000000 in
/-- The fold at the result buffer is the composed term: each operation's result at its own buffer is its function of
    the operands' contents and at any other buffer what was there, so the fold at `main_v85` is the product of the
    input with the broadcast gate, the gate a function of the covariance, and so on down to the five arguments; the
    functions' typed references are literal references here, their transports the identity. The sums are kept folded:
    the equation never looks inside one. -/
theorem out_eq (V : Valuation τ sig (Elt F)) :
    after ops V (main_v85 : DevRef τ sig)
      = Cert.Spec.result (F := F) (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- No operation writes the third argument. -/
theorem arg2_eq (V : Valuation τ sig (Elt F)) :
    after ops V (main_arg2 : DevRef τ sig) = V (main_arg2 : DevRef τ sig) := by
  after_results_simp

/-- No operation writes the fourth argument. -/
theorem arg3_eq (V : Valuation τ sig (Elt F)) :
    after ops V (main_arg3 : DevRef τ sig) = V (main_arg3 : DevRef τ sig) := by
  after_results_simp

/-- No operation writes the fifth argument. -/
theorem arg4_eq (V : Valuation τ sig (Elt F)) :
    after ops V (main_arg4 : DevRef τ sig) = V (main_arg4 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore's table only. -/
theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub .., nullary_bufs_sub .., unary_bufs_sub .., binary_bufs_sub .., nullary_bufs_sub ..,
    nullary_bufs_sub .., nullary_bufs_sub .., unary_bufs_sub .., binary_bufs_sub .., binary_bufs_sub .., nullary_bufs_sub ..,
    unary_bufs_sub .., unary_bufs_sub .., ternary_bufs_sub .., nullary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., binary_bufs_sub .., binary_bufs_sub ..,
    binary_bufs_sub .., unary_bufs_sub .., unary_bufs_sub .., binary_bufs_sub .., binary_bufs_sub .., nullary_bufs_sub ..,
    unary_bufs_sub .., binary_bufs_sub .., unary_bufs_sub .., unary_bufs_sub .., unary_bufs_sub .., binary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.lean ====
/-
  The certificate of the second-order channel attention kernel against its jnp reference.

  Both programs compute `Cert.Spec.result`: the input x : [32, 64, 96, 96] scaled channel-wise by a gate computed from
  the covariance of each sample's 64 channels over its 9216 positions (a Newton–Schulz square root of the covariance,
  its column means, a two-layer gate). The reference does all of it on the host, and its run IS that term. The kernel
  program computes the covariance in a first pipelined region (eight points, four samples each: centre the rows,
  one matrix product with the transpose, divide by 9216), the gate on the host by the very operations the reference
  applies, and the final scaling in a second pipelined region (eight points, four samples each). At the extended reals
  the two agree with no algebra beyond reading each block where it lies in its array: a matrix product into a zero
  accumulator is the host's dot product, a lane sum is the host's sum from 0, a change of tiling changes no value.

  The three frames: the two kernel programs' are the generated frames; the reference's is its run with the result dropped.
  The idealization rewrote nothing, so `preserves` is `True`.
-/
import proofs.«164792_j15358803050800_1_alg».proof.Defs
import proofs.«164792_j15358803050800_1_alg».proof.Proof.Gen.Kernel
import proofs.«164792_j15358803050800_1_alg».proof.Proof.Gen.Kernel.Skeleton
import proofs.«164792_j15358803050800_1_alg».proof.Proof.Gen.Kernel.Launch
import proofs.«164792_j15358803050800_1_alg».proof.Proof.Gen.Kernel.Points
import proofs.«164792_j15358803050800_1_alg».proof.Proof.Gen.Kernel.Frame
import proofs.«164792_j15358803050800_1_alg».proof.Proof.Gen.KernelIdeal
import proofs.«164792_j15358803050800_1_alg».proof.Proof.Gen.KernelIdeal.Skeleton
import proofs.«164792_j15358803050800_1_alg».proof.Proof.Gen.KernelIdeal.Launch
import proofs.«164792_j15358803050800_1_alg».proof.Proof.Gen.KernelIdeal.Points
import proofs.«164792_j15358803050800_1_alg».proof.Proof.Gen.KernelIdeal.Frame
import proofs.«164792_j15358803050800_1_alg».proof.Proof.Gen.ReferenceIdeal
import proofs.«164792_j15358803050800_1_alg».proof.Proof.Gen.Pre_finite_inputs
import proofs.«164792_j15358803050800_1_alg».proof.Proof.Spec
import proofs.«164792_j15358803050800_1_alg».proof.Proof.KernelRun
import proofs.«164792_j15358803050800_1_alg».proof.Proof.KernelGlue
import proofs.«164792_j15358803050800_1_alg».proof.Proof.CovRegion
import proofs.«164792_j15358803050800_1_alg».proof.Proof.GateRegion
import proofs.«164792_j15358803050800_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, read at the five argument arrays, which no operation writes. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _)⟩)
    (Cert.ReferenceIdeal.RefRun.run_main (F := Ideal) m ρ)

theorem preserves : Cert.preserves_Kernel_KernelIdeal := trivial

/-- Both runs end with the result array at `Cert.Spec.result` of the (agreeing) argument arrays: the kernel program's by
    its run with the result named, the two regions' values and the host operations between them; the reference's by its
    run, which is that term. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Glue.result_eq Cert.KernelIdeal.CovRegion.cov_final
          Cert.KernelIdeal.GateRegion.gated_final m ρ c), (h c).2⟩)
      (Cert.KernelIdeal.Named.run_named (F := Ideal) m ρ)
  · refine (θ_run Cert.ReferenceIdeal.defs _ _).mono
      (fun _ h c => ⟨((h c Cert.ReferenceIdeal.main_v85).trans (Cert.ReferenceIdeal.RefRun.out_eq _)).trans ?_,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _)⟩)
      (Cert.ReferenceIdeal.RefRun.run_main (F := Ideal) m' ρ')
    show Cert.Spec.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
